-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x46x2048 : Shape := ⟨3, ![64, 46, 2048]⟩
abbrev S64x256 : Shape := ⟨2, ![64, 256]⟩
abbrev S64x2048 : Shape := ⟨2, ![64, 2048]⟩
abbrev S_ : Shape := ⟨0, ![]⟩

class Facts : Prop where
  bcast_S_S64x46x2048 : S_.BroadcastsInDim S64x46x2048 (![] : Fin 0 → Fin S64x46x2048.rank)
  reducesTo_S64x46x2048_S_d0_1_2 : S64x46x2048.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S64x46x2048 .f32) (main_arg1 : IVec S64x256 32) (main_arg2 : IVec S64x2048 32) (main_arg3 : IVec S64x256 1) : IVec S_ 1 :=
  let main_v0 : FVec F S64x46x2048 .f32 := Host.absf main_arg0
  let main_cst : FVec F S_ .f32 := constant S_ .f32 0x7F800000#32
  let main_v1 : FVec F S64x46x2048 .f32 := broadcastInDim S64x46x2048 ![] bcast_S_S64x46x2048 main_cst
  let main_v2 : IVec S64x46x2048 1 := cmpf .olt main_v0 main_v1
  let main_c : IVec S_ 1 := constantI S_ 1 1#1
  let main_v3 : IVec S_ 1 := (fun x v => Host.reduce IntOp.andi x v reducesTo_S64x46x2048_S_d0_1_2 h_S_) main_v2 main_c
  let main_c_0 : IVec S_ 32 := constantI S_ 32 0#32
  let main_v4 : IVec S64x256 32 := broadcastInDim S64x256 ![] bcast_S_S64x256 main_c_0
  let main_v5 : IVec S64x256 1 := cmpi .sge main_arg1 main_v4
  let main_c_1 : IVec S_ 1 := constantI S_ 1 1#1
  let main_v6 : IVec S_ 1 := (fun x v => Host.reduce IntOp.andi x v reducesTo_S64x256_S_d0_1 h_S_) main_v5 main_c_1
  let main_v7 : IVec S_ 1 := andi main_v3 main_v6
  let main_c_2 : IVec S_ 32 := constantI S_ 32 46#32
  let main_v8 : IVec S64x256 32 := broadcastInDim S64x256 ![] bcast_S_S64x256 main_c_2
  let main_v9 : IVec S64x256 1 := cmpi .slt main_arg1 main_v8
  let main_c_3 : IVec S_ 1 := constantI S_ 1 1#1
  let main_v10 : IVec S_ 1 := (fun x v => Host.reduce IntOp.andi x v reducesTo_S64x256_S_d0_1 h_S_) main_v9 main_c_3
  let main_v11 : IVec S_ 1 := andi main_v7 main_v10
  main_v11
-- ==== Kernel.lean ====
abbrev S64x46x2048 : Shape := ⟨3, ![64, 46, 2048]⟩
abbrev S64x256 : Shape := ⟨2, ![64, 256]⟩
abbrev S64x2048 : Shape := ⟨2, ![64, 2048]⟩
abbrev S64x1x2048 : Shape := ⟨3, ![64, 1, 2048]⟩
abbrev S64x1x256 : Shape := ⟨3, ![64, 1, 256]⟩
abbrev S16x46x2048 : Shape := ⟨3, ![16, 46, 2048]⟩
abbrev S16x1x2048 : Shape := ⟨3, ![16, 1, 2048]⟩
abbrev S16x1x256 : Shape := ⟨3, ![16, 1, 256]⟩
abbrev S256x1 : Shape := ⟨2, ![256, 1]⟩
abbrev S256x46 : Shape := ⟨2, ![256, 46]⟩
abbrev S1x1x2048 : Shape := ⟨3, ![1, 1, 2048]⟩
abbrev S1x2048 : Shape := ⟨2, ![1, 2048]⟩
abbrev S256x2048 : Shape := ⟨2, ![256, 2048]⟩
abbrev S1x46x2048 : Shape := ⟨3, ![1, 46, 2048]⟩
abbrev S46x2048 : Shape := ⟨2, ![46, 2048]⟩
abbrev S47x2048 : Shape := ⟨2, ![47, 2048]⟩
abbrev S256x47 : Shape := ⟨2, ![256, 47]⟩
abbrev S256 : Shape := ⟨1, ![256]⟩
abbrev S1x1x256 : Shape := ⟨3, ![1, 1, 256]⟩
abbrev S1x256 : Shape := ⟨2, ![1, 256]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S64x46x2048, .f32⟩
  | .hbm, ⟨1, _⟩ => ⟨S64x256, .i32⟩
  | .hbm, ⟨2, _⟩ => ⟨S64x2048, .i32⟩
  | .hbm, ⟨3, _⟩ => ⟨S64x256, .i1⟩
  | .hbm, ⟨4, _⟩ => ⟨S64x1x2048, .i32⟩
  | .hbm, ⟨5, _⟩ => ⟨S64x1x256, .i32⟩
  | .hbm, ⟨6, _⟩ => ⟨S64x256, .f32⟩
  | .hbm, ⟨7, _⟩ => ⟨S64x1x256, .f32⟩
  | .hbm, ⟨8, _⟩ => ⟨S64x1x256, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S16x46x2048, .f32⟩
  | .local _ .vmem, ⟨1, _⟩ => ⟨S16x46x2048, .f32⟩
  | .local _ .vmem, ⟨2, _⟩ => ⟨S16x1x2048, .i32⟩
  | .local _ .vmem, ⟨3, _⟩ => ⟨S16x1x2048, .i32⟩
  | .local _ .vmem, ⟨4, _⟩ => ⟨S16x1x256, .i32⟩
  | .local _ .vmem, ⟨5, _⟩ => ⟨S16x1x256, .i32⟩
  | .local _ .vmem, ⟨6, _⟩ => ⟨S16x1x256, .f32⟩
  | .local _ .vmem, ⟨7, _⟩ => ⟨S16x1x256, .f32⟩
  | .local _ .vmem, ⟨8, _⟩ => ⟨S16x1x256, .f32⟩
  | .local _ .vmem, ⟨9, _⟩ => ⟨S16x1x256, .f32⟩
  | _, _ => ⟨S64x46x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v4 : BitVec 32 := Scalar.addi c0_i32 c16_i32
  let c1_i32_0 : BitVec 32 := 1#32
  ⟨c0_i32, v4, c1_i32_0⟩
def k0_off1 (k0_t1 : Fin k0_t1_loop.trips) : Fin 3 → Nat :=
  let c0_i32 : BitVec 32 := 0#32
  let c1_i32_0 : BitVec 32 := 1#32
  let arg6 : BitVec 32 := Scf.iv c0_i32 c1_i32_0 k0_t1
  let v5 : Index := Scalar.indexCast arg6
  let c0 : Index := 0#32
  let c0_2 : Index := 0#32
  ![v5.toNat, 0, 0]
def k0_off2 (k0_t1 : Fin k0_t1_loop.trips) : Fin 3 → Nat :=
  let c0_i32 : BitVec 32 := 0#32
  let c1_i32_0 : BitVec 32 := 1#32
  let arg6 : BitVec 32 := Scf.iv c0_i32 c1_i32_0 k0_t1
  let v14 : Index := Scalar.indexCast arg6
  let c0_3 : Index := 0#32
  let c0_4 : Index := 0#32
  ![v14.toNat, 0, 0]
def k0_off3 (k0_t1 : Fin k0_t1_loop.trips) : Fin 3 → Nat :=
  let c0_i32 : BitVec 32 := 0#32
  let c1_i32_0 : BitVec 32 := 1#32
  let arg6 : BitVec 32 := Scf.iv c0_i32 c1_i32_0 k0_t1
  let v37 : Index := Scalar.indexCast arg6
  let c0_9 : Index := 0#32
  let c0_10 : Index := 0#32
  ![v37.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x46x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x2048_S64x1x2048 : S64x2048.ShapeCasts S64x1x2048
  shapeCasts_S64x256_S64x1x256 : S64x256.ShapeCasts S64x1x256
  iota_S256x1_d0_w32 : S256x1.Iotas .tc 32 [0]
  iota_S256x46_d1_w32 : S256x46.Iotas .tc 32 [1]
  h_S1x1x2048 : 0 < S1x1x2048.numel
  shapeCasts_S1x1x2048_S1x2048 : S1x1x2048.ShapeCasts S1x2048
  broadcasts_S256x1_S256x2048 : S256x1.Broadcasts S256x2048
  broadcasts_S1x2048_S256x2048 : S1x2048.Broadcasts S256x2048
  natLt_1_32 : 1 < 32
  bitsLt_bf16_f32 : FTy.bits .bf16 < FTy.bits .f32
  h_S1x46x2048 : 0 < S1x46x2048.numel
  shapeCasts_S1x46x2048_S46x2048 : S1x46x2048.ShapeCasts S46x2048
  concatenates_S46x2048_S1x2048_S47x2048_d0 : Shape.Concatenates [S46x2048, S1x2048] S47x2048 0
  slices_S256x47_o0_46_S256x1 : S256x47.Slices ![0, 46] S256x1
  slices_S256x47_o0_0_S256x46 : S256x47.Slices ![0, 0] S256x46
  broadcasts_S256x1_S256x46 : S256x1.Broadcasts S256x46
  reduces_S256x46_S256 : S256x46.Reduces [1] S256
  shapeCasts_S256_S256x1 : S256.ShapeCasts S256x1
  h_S1x1x256 : 0 < S1x1x256.numel
  shapeCasts_S1x1x256_S1x256 : S1x1x256.ShapeCasts S1x256
  transposes_S1x256_p1_0_S256x1 : S1x256.Transposes [1, 0] S256x1
  transposes_S256x1_p1_0_S1x256 : S256x1.Transposes [1, 0] S1x256
  shapeCasts_S1x256_S1x1x256 : S1x256.ShapeCasts S1x1x256
  reducesTo_S64x1x256_S_d0_1_2 : S64x1x256.ReducesTo [0, 1, 2] S_
  h_S_ : 0 < S_.numel
  dot_S256x2048_S47x2048_S256x47_1_1_0_0_n_n_wf : DotDims.WF S256x2048 S47x2048 S256x47 [1] [1] [0] [0] [] []
  hrank0 : 0 < grid0.rank
  k0_t1_ok : k0_t1_loop.OK
  k0_off1_inb : ∀ k0_t1 : Fin k0_t1_loop.trips, ∀ a, (k0_off1 k0_t1) a + S1x1x2048.size a ≤ S16x1x2048.size a
  k0_off2_inb : ∀ k0_t1 : Fin k0_t1_loop.trips, ∀ a, (k0_off2 k0_t1) a + S1x46x2048.size a ≤ S16x46x2048.size a
  k0_off3_inb : ∀ k0_t1 : Fin k0_t1_loop.trips, ∀ a, (k0_off3 k0_t1) a + S1x1x256.size a ≤ S16x1x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x46x2048.size a ≤ S64x46x2048.size a
  hwx0_0 : ∀ i : grid0.Coords, EltTy.bits .f32 = 32 ∨ (Rect.block (s := S64x46x2048) S16x46x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x2048.size a ≤ S64x1x2048.size a
  hwx0_1 : ∀ i : grid0.Coords, EltTy.bits .i32 = 32 ∨ (Rect.block (s := S64x1x2048) S16x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x256.size a ≤ S64x1x256.size a
  hwx0_2 : ∀ i : grid0.Coords, EltTy.bits .i32 = 32 ∨ (Rect.block (s := S64x1x256) S16x1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x256.size a ≤ S64x1x256.size a
  hwx0_3 : ∀ i : grid0.Coords, EltTy.bits .f32 = 32 ∨ (Rect.block (s := S64x1x256) S16x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x256.size a ≤ S64x1x256.size a
  hwx0_4 : ∀ i : grid0.Coords, EltTy.bits .f32 = 32 ∨ (Rect.block (s := S64x1x256) S16x1x256.size (cc0_transform_4 i) (hinb0_4 i)).WholeWords (EltTy.packing .f32)

variable [Facts₀]

def dot_S256x2048_S47x2048_S256x47_1_1_0_0_n_n : DotDims S256x2048 S47x2048 S256x47 where
  lhsContracting := [1]
  rhsContracting := [1]
  lhsNonContracting := [0]
  rhsNonContracting := [0]
  lhsBatch := []
  rhsBatch := []
  wf := dot_S256x2048_S47x2048_S256x47_1_1_0_0_n_n_wf

abbrev win0_0 : Pipeline.Window sig grid0 :=
  Pipeline.Window.ofSpec (Memref.whole main_arg0) S16x46x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x46x2048 : Shape := ⟨3, ![64, 46, 2048]⟩
abbrev S64x256 : Shape := ⟨2, ![64, 256]⟩
abbrev S64x2048 : Shape := ⟨2, ![64, 2048]⟩
abbrev S256 : Shape := ⟨1, ![256]⟩
abbrev S_ : Shape := ⟨0, ![]⟩
abbrev S64x1x2048 : Shape := ⟨3, ![64, 1, 2048]⟩
abbrev S1x256x1 : Shape := ⟨3, ![1, 256, 1]⟩
abbrev S64x256x2048 : Shape := ⟨3, ![64, 256, 2048]⟩
abbrev S64x256x46 : Shape := ⟨3, ![64, 256, 46]⟩
abbrev S64x256x1 : Shape := ⟨3, ![64, 256, 1]⟩
abbrev S64x256x1x1 : Shape := ⟨4, ![64, 256, 1, 1]⟩
abbrev S1 : Shape := ⟨1, ![1]⟩
abbrev S1x1x1x1 : Shape := ⟨4, ![1, 1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S64x46x2048, .f32⟩
  | .hbm, ⟨1, _⟩ => ⟨S64x256, .i32⟩
  | .hbm, ⟨2, _⟩ => ⟨S64x2048, .i32⟩
  | .hbm, ⟨3, _⟩ => ⟨S64x256, .i1⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S64x1x2048, .i32⟩
  | .hbm, ⟨9, _⟩ => ⟨S1x256x1, .i32⟩
  | .hbm, ⟨10, _⟩ => ⟨S64x256x2048, .i32⟩
  | .hbm, ⟨11, _⟩ => ⟨S64x256x2048, .i32⟩
  | .hbm, ⟨12, _⟩ => ⟨S64x256x2048, .i1⟩
  | .hbm, ⟨13, _⟩ => ⟨S64x256x2048, .f32⟩
  | .hbm, ⟨14, _⟩ => ⟨S64x256x46, .f32⟩
  | .hbm, ⟨15, _⟩ => ⟨S_, .f32⟩
  | .hbm, ⟨16, _⟩ => ⟨S64x256, .f32⟩
  | .hbm, ⟨17, _⟩ => ⟨S_, .f32⟩
  | .hbm, ⟨18, _⟩ => ⟨S64x256, .f32⟩
  | .hbm, ⟨19, _⟩ => ⟨S64x256, .f32⟩
  | .hbm, ⟨20, _⟩ => ⟨S64x256x1, .f32⟩
  | .hbm, ⟨21, _⟩ => ⟨S64x256x46, .f32⟩
  | .hbm, ⟨22, _⟩ => ⟨S64x256x46, .f32⟩
  | .hbm, ⟨23, _⟩ => ⟨S_, .f32⟩
  | .hbm, ⟨24, _⟩ => ⟨S64x256, .f32⟩
  | .hbm, ⟨25, _⟩ => ⟨S_, .f32⟩
  | .hbm, ⟨26, _⟩ => ⟨S64x256, .f32⟩
  | .hbm, ⟨27, _⟩ => ⟨S64x256, .f32⟩
  | .hbm, ⟨28, _⟩ => ⟨S64x256x1, .f32⟩
  | .hbm, ⟨29, _⟩ => ⟨S64x256x46, .f32⟩
  | .hbm, ⟨30, _⟩ => ⟨S64x256x46, .f32⟩
  | .hbm, ⟨31, _⟩ => ⟨S64x256x46, .f32⟩
  | .hbm, ⟨32, _⟩ => ⟨S_, .f32⟩
  | .hbm, ⟨33, _⟩ => ⟨S64x256, .f32⟩
  | .hbm, ⟨34, _⟩ => ⟨S64x256x1, .f32⟩
  | .hbm, ⟨35, _⟩ => ⟨S64x256x1, .f32⟩
  | .hbm, ⟨36, _⟩ => ⟨S64x256x46, .f32⟩
  | .hbm, ⟨37, _⟩ => ⟨S64x256x46, .f32⟩
  | .hbm, ⟨38, _⟩ => ⟨S64x256x1, .i32⟩
  | .hbm, ⟨39, _⟩ => ⟨S_, .i32⟩
  | .hbm, ⟨40, _⟩ => ⟨S64x256x1, .i32⟩
  | .hbm, ⟨41, _⟩ => ⟨S64x256x1, .i1⟩
  | .hbm, ⟨42, _⟩ => ⟨S_, .i32⟩
  | .hbm, ⟨43, _⟩ => ⟨S64x256x1, .i32⟩
  | .hbm, ⟨44, _⟩ => ⟨S64x256x1, .i32⟩
  | .hbm, ⟨45, _⟩ => ⟨S64x256x1, .i32⟩
  | .hbm, ⟨46, _⟩ => ⟨S64x256x1x1, .i32⟩
  | .hbm, ⟨47, _⟩ => ⟨S1, .i32⟩
  | .hbm, ⟨48, _⟩ => ⟨S_, .i32⟩
  | .hbm, ⟨49, _⟩ => ⟨S64x256x1x1, .i32⟩
  | .hbm, ⟨50, _⟩ => ⟨S64x256x1x1, .i1⟩
  | .hbm, ⟨51, _⟩ => ⟨S1x1x1x1, .i32⟩
  | .hbm, ⟨52, _⟩ => ⟨S64x256x1x1, .i32⟩
  | .hbm, ⟨53, _⟩ => ⟨S64x256x1x1, .i1⟩
  | .hbm, ⟨54, _⟩ => ⟨S64x256x1x1, .i1⟩
  | .hbm, ⟨55, _⟩ => ⟨S_, .i1⟩
  | .hbm, ⟨56, _⟩ => ⟨S64x256x1, .i1⟩
  | .hbm, ⟨57, _⟩ => ⟨S64x256x1, .f32⟩
  | .hbm, ⟨58, _⟩ => ⟨S_, .f32⟩
  | .hbm, ⟨59, _⟩ => ⟨S64x256x1, .f32⟩
  | .hbm, ⟨60, _⟩ => ⟨S64x256x1, .f32⟩
  | .hbm, ⟨61, _⟩ => ⟨S64x256, .f32⟩
  | .hbm, ⟨62, _⟩ => ⟨S64x256, .f32⟩
  | .hbm, ⟨63, _⟩ => ⟨S64x256, .f32⟩
  | .hbm, ⟨64, _⟩ => ⟨S_, .f32⟩
  | .hbm, ⟨65, _⟩ => ⟨S_, .f32⟩
  | .hbm, ⟨66, _⟩ => ⟨S_, .f32⟩
  | _, _ => ⟨S64x46x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v16 : Ref sig .tc := ⟨.hbm, 37, rfl⟩
abbrev main_v17 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_1 : Ref sig .tc := ⟨.hbm, 64, rfl⟩
abbrev main_v22 : Ref sig .tc := ⟨.hbm, 65, rfl⟩
abbrev main_v23 : Ref sig .tc := ⟨.hbm, 66, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S64x2048_S64x1x2048_0_2 : S64x2048.BroadcastsInDim S64x1x2048 (![0, 2] : Fin 2 → Fin S64x1x2048.rank)
  bcast_S256_S1x256x1_1 : S256.BroadcastsInDim S1x256x1 (![1] : Fin 1 → Fin S1x256x1.rank)
  bcast_S64x1x2048_S64x256x2048_0_1_2 : S64x1x2048.BroadcastsInDim S64x256x2048 (![0, 1, 2] : Fin 3 → Fin S64x256x2048.rank)
  bcast_S1x256x1_S64x256x2048_0_1_2 : S1x256x1.BroadcastsInDim S64x256x2048 (![0, 1, 2] : Fin 3 → Fin S64x256x2048.rank)
  reducesTo_S64x256x2048_S64x256_d2 : S64x256x2048.ReducesTo [2] S64x256
  h_S_ : 0 < S_.numel
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S64x256x1_S64x256x46_0_1_2 : S64x256x1.BroadcastsInDim S64x256x46 (![0, 1, 2] : Fin 3 → Fin S64x256x46.rank)
  reducesTo_S64x256x46_S64x256_d2 : S64x256x46.ReducesTo [2] S64x256
  bcast_S_S64x256x1 : S_.BroadcastsInDim S64x256x1 (![] : Fin 0 → Fin S64x256x1.rank)
  shapeCasts_S64x256x1_S64x256x1x1 : S64x256x1.ShapeCasts S64x256x1x1
  bcast_S_S64x256x1x1 : S_.BroadcastsInDim S64x256x1x1 (![] : Fin 0 → Fin S64x256x1x1.rank)
  bcast_S1_S1x1x1x1_3 : S1.BroadcastsInDim S1x1x1x1 (![3] : Fin 1 → Fin S1x1x1x1.rank)
  bcast_S1x1x1x1_S64x256x1x1_0_1_2_3 : S1x1x1x1.BroadcastsInDim S64x256x1x1 (![0, 1, 2, 3] : Fin 4 → Fin S64x256x1x1.rank)
  reducesTo_S64x256x1x1_S64x256x1_d3 : S64x256x1x1.ReducesTo [3] S64x256x1
  shapeCasts_S64x256x1_S64x256 : S64x256x1.ShapeCasts S64x256
  reducesTo_S64x256_S_d0_1 : S64x256.ReducesTo [0, 1] S_
  dot_S64x256x2048_S64x46x2048_S64x256x46_2_2_1_1_0_0_wf : DotDims.WF S64x256x2048 S64x46x2048 S64x256x46 [2] [2] [1] [1] [0] [0]
  gather_S64x256x46_S64x256x1x1_S64x256x1_n_2_01_01_2_3_111_wf : GatherDims.WF S64x256x46 S64x256x1x1 S64x256x1 [] [2] [0, 1] [2] [0, 1] 3 ![1, 1, 1]

variable [Facts₀]

def dot_S64x256x2048_S64x46x2048_S64x256x46_2_2_1_1_0_0 : DotDims S64x256x2048 S64x46x2048 S64x256x46 where
  lhsContracting := [2]
  rhsContracting := [2]
  lhsNonContracting := [1]
  rhsNonContracting := [1]
  lhsBatch := [0]
  rhsBatch := [0]
  wf := dot_S64x256x2048_S64x46x2048_S64x256x46_2_2_1_1_0_0_wf
def gather_S64x256x46_S64x256x1x1_S64x256x1_n_2_01_01_2_3_111 : GatherDims S64x256x46 S64x256x1x1 S64x256x1 where
  offsetDims := []
  collapsedSliceDims := [2]
  operandBatchingDims := [0, 1]
  startIndicesBatchingDims := [0, 1]
  startIndexMap := [2]
  indexVectorDim := 3
  sliceSizes := ![1, 1, 1]
  wf := gather_S64x256x46_S64x256x1x1_S64x256x1_n_2_01_01_2_3_111_wf

class Facts : Prop extends Facts₀ where

variable [Facts]
-- ==== Proof.PreRange.lean ====
/-
  What the precondition says of the target labels. The printed precondition is the conjunction of three
  whole-array tests (every input logit finite; every target label at least zero; every target label below 46,
  the two label tests signed), each a reduction by `and` of an elementwise comparison. From its being one we read,
  at each (row, phone), that the label word is signed-nonnegative and signed-below 46, hence as a natural number
  below 46: the label names one of the 46 classes.
-/
import proofs.«411134_j20950850470178_3_alg».proof.Pre_finite_inputs
import Idealize.ShloMosaic.PureOps.Ideal
import Idealize.ShloMosaic.Lib.ReduceAll
import Idealize.ShloMosaic.Lib.WordArith
import Idealize.ShloMosaic.Lib.ValueIdx

noncomputable section

namespace Cert.SegCE.PreRange

open Idealize.ShloMosaic Idealize.ShloMosaic.ValueIdx Idealize.ShloMosaic.WordArith

variable [Cert.Pre_finite_inputs.Facts]

/-- The scalar shape has one index. -/
instance : Subsingleton Cert.Pre_finite_inputs.S_.Idx := ⟨fun _ _ => funext fun d => d.elim0⟩

/-- Under the precondition every target label, read as a natural number, is below 46. -/
theorem target_lt (a0 : FVec Ideal Cert.Pre_finite_inputs.S64x46x2048 .f32) (a1 : IVec Cert.Pre_finite_inputs.S64x256 32)
    (a2 : IVec Cert.Pre_finite_inputs.S64x2048 32) (a3 : IVec Cert.Pre_finite_inputs.S64x256 1)
    (h : Cert.Pre_finite_inputs.fn (F := Ideal) a0 a1 a2 a3 = fun _ => 1#1) (i : Cert.Pre_finite_inputs.S64x256.Idx) :
    (a1 i).toNat < 46 := by
  have e := congrFun h ix0
  unfold Cert.Pre_finite_inputs.fn at e
  dsimp only at e
  -- the outer `and` of (finite ∧ nonnegative) with (below 46), at the one index
  obtain ⟨e1, e46⟩ := IntOp.andi_eq_one.1 e
  obtain ⟨-, e0⟩ := IntOp.andi_eq_one.1 e1
  have h0 := Host.reduce_andi_all _ _ _ _ _ e0 i
  have h46 := Host.reduce_andi_all _ _ _ _ _ e46 i
  -- each comparison's bit is one: the signed comparison holds
  have h0' : BitVec.sle 0#32 (a1 i) = true := (ofBool_eq_one_iff _).1 h0
  have h46' : BitVec.slt (a1 i) (BitVec.ofNat 32 46) = true := (ofBool_eq_one_iff _).1 h46
  exact toNat_lt_of_zero_sle_of_slt_ofNat (a1 i) 46 (by norm_num) h0' h46'

end Cert.SegCE.PreRange

end
-- ==== Proof.Spec.lean ====
/-
  The quantity both programs compute, as one function of the four argument arrays, at the ideal values.

  A batch row has 46 class rows of 2048 frame logits `x c p`, a segment id `a p` per frame (a 32-bit word), and
  256 phones. Frame `p` belongs to phone `q` when its segment id is `q + 1` (`hot`). Per phone and class the
  frame logits of the phone's frames are summed (`segSum`) and divided by the number of those frames, that number
  raised to at least one (`mean`), so a phone with no frame has mean zero. Over the 46 classes of a phone the
  means are turned into log-probabilities the stable way: the largest mean is subtracted (`shifted`), and then the
  logarithm of the sum of the exponentials of the differences (`lse`), giving `logp`. The phone's contribution is
  its log-probability at its target class (`pick`: the sum over the classes of the log-probability where the class
  number, as a word, is the target word, and zero elsewhere) times its mask value, and the result is minus the sum
  of all 64 x 256 contributions (`loss`).

  Float literals stay as the words the programs print (one, minus infinity, zero): the same word stands on both
  sides and is never evaluated here.
-/
import Idealize.ShloMosaic.PureOps.Ideal
import Idealize.ShloMosaic.Lib.ValueIdx

noncomputable section

namespace Cert.SegCE

open Idealize.ShloMosaic

/-- Frame with segment id `a` belongs to phone `q`: one if the id is `q + 1`, else zero. -/
def hot (a : BitVec 32) (q : Fin 256) : EReal := if a = BitVec.ofNat 32 q.val + 1#32 then 1 else 0

/-- The sum over the phone's frames of class `c`'s logits. -/
def segSum (x : Fin 46 → Fin 2048 → EReal) (a : Fin 2048 → BitVec 32) (q : Fin 256) (c : Fin 46) : EReal :=
  ∑ p : Fin 2048, hot (a p) q * x c p

/-- The number of the phone's frames. -/
def segCnt (a : Fin 2048 → BitVec 32) (q : Fin 256) : EReal := ∑ p : Fin 2048, hot (a p) q

/-- The mean logit of class `c` over the phone's frames, the frame count raised to at least one. -/
def mean (x : Fin 46 → Fin 2048 → EReal) (a : Fin 2048 → BitVec 32) (q : Fin 256) (c : Fin 46) : EReal :=
  Ideal.div (segSum x a q c) (max (segCnt a q) (Ideal.ofBits .f32 0x3F800000#32))

/-- The largest of the phone's 46 means (folded from the word for minus infinity). -/
def rowMax (x : Fin 46 → Fin 2048 → EReal) (a : Fin 2048 → BitVec 32) (q : Fin 256) : EReal :=
  (Finset.univ : Finset (Fin 46)).fold max (Ideal.ofBits .f32 0xFF800000#32) (fun c => mean x a q c)

/-- A mean less the largest mean. -/
def shifted (x : Fin 46 → Fin 2048 → EReal) (a : Fin 2048 → BitVec 32) (q : Fin 256) (c : Fin 46) : EReal :=
  mean x a q c - rowMax x a q

/-- The logarithm of the sum over the classes of the exponentials of the shifted means. -/
def lse (x : Fin 46 → Fin 2048 → EReal) (a : Fin 2048 → BitVec 32) (q : Fin 256) : EReal :=
  Ideal.log (∑ c : Fin 46, Ideal.exp (shifted x a q c))

/-- The log-probability of class `c` at phone `q`. -/
def logp (x : Fin 46 → Fin 2048 → EReal) (a : Fin 2048 → BitVec 32) (q : Fin 256) (c : Fin 46) : EReal :=
  shifted x a q c - lse x a q

/-- The log-probability at the target class, picked by comparing each class number with the target word. -/
def pick (x : Fin 46 → Fin 2048 → EReal) (a : Fin 2048 → BitVec 32) (tg : BitVec 32) (q : Fin 256) : EReal :=
  ∑ c : Fin 46, if BitVec.ofNat 32 c.val = tg then logp x a q c else 0

/-- A target word that is a class number picks that class's log-probability: exactly one class number equals it. -/
theorem pick_eq (x : Fin 46 → Fin 2048 → EReal) (a : Fin 2048 → BitVec 32) (tg : BitVec 32) (q : Fin 256)
    (h : tg.toNat < 46) : pick x a tg q = logp x a q ⟨tg.toNat, h⟩ := by
  unfold pick
  rw [Finset.sum_eq_single (⟨tg.toNat, h⟩ : Fin 46)]
  · rw [if_pos]
    exact BitVec.eq_of_toNat_eq (by simp)
  · intro c _ hc
    rw [if_neg]
    intro he
    apply hc
    apply Fin.ext
    have := congrArg BitVec.toNat he
    simp only [BitVec.toNat_ofNat] at this
    have hlt : c.val < 2 ^ 32 := by have := c.isLt; omega
    rw [Nat.mod_eq_of_lt hlt] at this
    exact this
  · intro hn; exact absurd (Finset.mem_univ _) hn

/-- Minus the sum of the 64 x 256 masked contributions (added to the word for zero, as both programs' final
    sums start from it). -/
def loss (X : Fin 64 → Fin 46 → Fin 2048 → EReal) (A : Fin 64 → Fin 2048 → BitVec 32)
    (Tg : Fin 64 → Fin 256 → BitVec 32) (M : Fin 64 → Fin 256 → EReal) : EReal :=
  -(Ideal.ofBits .f32 0x00000000#32 + ∑ n : Fin 64, ∑ q : Fin 256, pick (X n) (A n) (Tg n q) q * M n q)

end Cert.SegCE

end
-- ==== Proof.KernelRow.lean ====
/-
  The kernel's row payload read at one phone.

  For one batch row the kernel builds, over the 256 phones and the 2048 frames, the matrix whose entry (q, p) is one
  when frame p's segment id is q + 1 and zero otherwise; multiplies it into the 46 class rows of frame logits with a
  row of ones appended, so that column c < 46 of the product is the phone's sum of class c's logits and column 46 is
  the phone's frame count; divides the sums by the count raised to at least one; takes the row maximum, the
  differences, the logarithm of the sum of their exponentials; selects the log-probability whose class number is the
  target word; sums the selected row; and multiplies by the mask. Each stage is named below as the payload spells
  it, read at an index as the specification's function of the same name, and the payload is their composition.
-/
import proofs.«411134_j20950850470178_3_alg».proof.Proof.Gen.KernelIdeal.Skeleton
import proofs.«411134_j20950850470178_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.SegCE.KernelRow

open Idealize.ShloMosaic Idealize.ShloMosaic.ValueIdx Cert.KernelIdeal Cert.KernelIdeal.Gen Cert.SegCE

/-! ## Layout: a vector as a column, and a column repeated along the rows -/

section Layout
variable {α : Type}

/-- A vector cast to a one-column matrix reads, at (i, u), the vector at i: both positions are i in row-major
    order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (i, j), the column at i. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## Words: a comparison's bit as a number -/

/-- A truth value as a bit, widened to a word and read signed, is one or zero. -/
theorem toInt_bit (b : Bool) : ((BitVec.ofBool b).setWidth 32).toInt = if b = true then 1 else 0 := by
  cases b <;> decide

/-- The word comparison "q + 1 equals the segment id", widened and converted, is the specification's indicator
    that the frame belongs to phone q. -/
theorem hot_entry (a : BitVec 32) (q : Fin 256) :
    (FloatOps.sitofp (F := Ideal) .f32
      ((IntOp.cmpi .eq (IntOp.addi (BitVec.ofNat 32 q.val) 1#32) a).setWidth 32) : Ideal .f32) = hot a q := by
  show (((((BitVec.ofBool (BitVec.ofNat 32 q.val + 1#32 == a)).setWidth 32).toInt : ℤ) : ℝ) : EReal) = hot a q
  rw [toInt_bit]
  unfold hot
  by_cases h : a = BitVec.ofNat 32 q.val + 1#32
  · have hb : (BitVec.ofNat 32 q.val + 1#32 == a) = true := by rw [h]; exact beq_self_eq_true _
    rw [hb, if_pos (rfl : true = true), if_pos h]
    simp
  · have hb : (BitVec.ofNat 32 q.val + 1#32 == a) = false := beq_eq_false_iff_ne.mpr (fun e => h e.symm)
    rw [hb, if_neg Bool.false_ne_true, if_neg h]
    simp

/-- The class-number comparison as a bit selects exactly when the class number is the target word. -/
theorem select_class {β : Type} (c : Fin 46) (tg : BitVec 32) (x y : β) :
    Scalar.select (IntOp.cmpi .eq (BitVec.ofNat 32 c.val) tg) x y = if BitVec.ofNat 32 c.val = tg then x else y := by
  show (if BitVec.ofBool (BitVec.ofNat 32 c.val == tg) = 1#1 then x else y) = _
  by_cases h : BitVec.ofNat 32 c.val = tg
  · have hb : (BitVec.ofNat 32 c.val == tg) = true := by rw [h]; exact beq_self_eq_true _
    rw [hb, if_pos h]; rfl
  · have hb : (BitVec.ofNat 32 c.val == tg) = false := beq_eq_false_iff_ne.mpr h
    rw [hb, if_neg h]; rfl

/-! ## The payload's stages, each spelt as the kernel prints it -/

/-- Frames by phones: one where the frame's segment id is the phone's number plus one. -/
def onehot (v6 : Vec Ideal S1x1x2048 .i32) : FVec Ideal S256x2048 .bf16 :=
  truncf .bf16
    (sitofp .f32
      (extui 32
        (cmpi .eq (broadcastTo S256x2048 k0_pay1 broadcasts_S256x1_S256x2048)
          (broadcastTo S256x2048 (shapeCast S1x2048 v6 shapeCasts_S1x1x2048_S1x2048 : IVec S1x2048 32)
            broadcasts_S1x2048_S256x2048))
        natLt_1_32) : FVec Ideal S256x2048 .f32)
    bitsLt_bf16_f32

/-- The 46 class rows of frame logits with a row of ones appended. -/
def operand (v15 : Vec Ideal S1x46x2048 .f32) : FVec Ideal S47x2048 .bf16 :=
  concatenate S47x2048 0
    [⟨S46x2048, (truncf .bf16 (shapeCast S46x2048 v15 shapeCasts_S1x46x2048_S46x2048 : FVec Ideal S46x2048 .f32)
        bitsLt_bf16_f32 : FVec Ideal S46x2048 .bf16)⟩,
     ⟨S1x2048, (broadcast S1x2048 (FloatOps.ofBits (F := Ideal) .bf16 0x3F80#16) : FVec Ideal S1x2048 .bf16)⟩]
    concatenates_S46x2048_S1x2048_S47x2048_d0

/-- Their product over the frames: per phone the 46 segment sums and, last, the frame count. -/
def sums (v6 : Vec Ideal S1x1x2048 .i32) (v15 : Vec Ideal S1x46x2048 .f32) : FVec Ideal S256x47 .f32 :=
  matmul dot_S256x2048_S47x2048_S256x47_1_1_0_0_n_n none (onehot v6) (operand v15)
    (constant (F := Ideal) S256x47 .f32 0x00000000#32)

/-- The segment sums over the frame count raised to at least one. -/
def meanV (v6 : Vec Ideal S1x1x2048 .i32) (v15 : Vec Ideal S1x46x2048 .f32) : FVec Ideal S256x46 .f32 :=
  divf (extractStridedSlice S256x46 ![0, 0] (sums v6 v15) slices_S256x47_o0_0_S256x46 : FVec Ideal S256x46 .f32)
    (broadcastTo S256x46
      (maximumf (extractStridedSlice S256x1 ![0, 46] (sums v6 v15) slices_S256x47_o0_46_S256x1 : FVec Ideal S256x1 .f32)
        (broadcast S256x1 (FloatOps.ofBits (F := Ideal) .f32 0x3F800000#32)))
      broadcasts_S256x1_S256x46)

/-- Each phone's largest mean. -/
def rowMaxV (v6 : Vec Ideal S1x1x2048 .i32) (v15 : Vec Ideal S1x46x2048 .f32) : FVec Ideal S256 .f32 :=
  multiReduction .maximumf [1] S256 (meanV v6 v15) 0xFF800000#32 reduces_S256x46_S256 (.inl rfl) rfl

/-- The means less the largest. -/
def shiftedV (v6 : Vec Ideal S1x1x2048 .i32) (v15 : Vec Ideal S1x46x2048 .f32) : FVec Ideal S256x46 .f32 :=
  subf (meanV v6 v15)
    (broadcastTo S256x46 (shapeCast S256x1 (rowMaxV v6 v15) shapeCasts_S256_S256x1 : FVec Ideal S256x1 .f32)
      broadcasts_S256x1_S256x46)

/-- Each phone's sum of the exponentials of the differences. -/
def sumExpV (v6 : Vec Ideal S1x1x2048 .i32) (v15 : Vec Ideal S1x46x2048 .f32) : FVec Ideal S256 .f32 :=
  multiReduction .add [1] S256 (exp (shiftedV v6 v15)) 0x00000000#32 reduces_S256x46_S256 (.inl rfl) rfl

/-- The log-probabilities. -/
def logpV (v6 : Vec Ideal S1x1x2048 .i32) (v15 : Vec Ideal S1x46x2048 .f32) : FVec Ideal S256x46 .f32 :=
  subf (shiftedV v6 v15)
    (broadcastTo S256x46
      (log (shapeCast S256x1 (sumExpV v6 v15) shapeCasts_S256_S256x1 : FVec Ideal S256x1 .f32))
      broadcasts_S256x1_S256x46)

/-- The target words, one per phone, repeated along the classes. -/
def targetV (v38 : Vec Ideal S1x1x256 .i32) : IVec S256x46 32 :=
  broadcastTo S256x46
    (transpose S256x1 [1, 0] (shapeCast S1x256 v38 shapeCasts_S1x1x256_S1x256 : IVec S1x256 32)
      transposes_S1x256_p1_0_S256x1)
    broadcasts_S256x1_S256x46

/-- The log-probability where the class number is the target word, zero elsewhere. -/
def chosenV (v6 : Vec Ideal S1x1x2048 .i32) (v15 : Vec Ideal S1x46x2048 .f32) (v38 : Vec Ideal S1x1x256 .i32) :
    FVec Ideal S256x46 .f32 :=
  select (cmpi .eq (iota .tc S256x46 32 [1] iota_S256x46_d1_w32) (targetV v38)) (logpV v6 v15)
    (broadcast S256x46 (FloatOps.ofBits (F := Ideal) .f32 0x00000000#32))

/-- Each phone's sum of the selected row, laid out as a row of 256. -/
def pickedV (v6 : Vec Ideal S1x1x2048 .i32) (v15 : Vec Ideal S1x46x2048 .f32) (v38 : Vec Ideal S1x1x256 .i32) :
    FVec Ideal S1x256 .f32 :=
  transpose S1x256 [1, 0]
    (shapeCast S256x1
      (multiReduction .add [1] S256 (chosenV v6 v15 v38) 0x00000000#32 reduces_S256x46_S256 (.inl rfl) rfl)
      shapeCasts_S256_S256x1 : FVec Ideal S256x1 .f32)
    transposes_S256x1_p1_0_S1x256

/-- The payload is the composition of the stages: both sides are the same nest of operations. -/
theorem pay3_eq (v6 : Vec Ideal S1x1x2048 .i32) (v15 : Vec Ideal S1x46x2048 .f32) (v38 : Vec Ideal S1x1x256 .i32) :
    k0_pay3 (F := Ideal) k0_pay1 (iota .tc S256x46 32 [1] iota_S256x46_d1_w32) v6 v15 v38 = pickedV v6 v15 v38 := rfl

/-! ## The one-hot matrix and the operand with its row of ones, at an entry -/

/-- Entry (q, p) of the one-hot matrix is the indicator that frame p belongs to phone q. -/
theorem onehot_apply (v6 : Vec Ideal S1x1x2048 .i32) (q : Fin 256) (p : Fin 2048) :
    onehot v6 (ix2 q p) = hot (v6 (ix3 (0 : Fin 1) (0 : Fin 1) p)) q := by
  have e1 : broadcastTo S256x2048 k0_pay1 broadcasts_S256x1_S256x2048 (ix2 q p)
      = IntOp.addi (BitVec.ofNat 32 q.val) 1#32 :=
    (broadcastTo_a1_ab_apply k0_pay1 broadcasts_S256x1_S256x2048 q p).trans
      (congrArg (fun z => IntOp.addi z 1#32)
        (iota_single_apply .tc S256x1 32 0 iota_S256x1_d0_w32 (ix2 q (0 : Fin 1))))
  have e2 : broadcastTo S256x2048 (shapeCast S1x2048 v6 shapeCasts_S1x1x2048_S1x2048 : IVec S1x2048 32)
      broadcasts_S1x2048_S256x2048 (ix2 q p) = v6 (ix3 (0 : Fin 1) (0 : Fin 1) p) :=
    (broadcastTo_1b_ab_apply _ broadcasts_S1x2048_S256x2048 q p).trans
      (shapeCast_1ab_ab_apply v6 shapeCasts_S1x1x2048_S1x2048 (0 : Fin 1) p)
  have e3 : onehot v6 (ix2 q p)
      = (FloatOps.sitofp (F := Ideal) .f32
          ((IntOp.cmpi .eq (broadcastTo S256x2048 k0_pay1 broadcasts_S256x1_S256x2048 (ix2 q p))
            (broadcastTo S256x2048 (shapeCast S1x2048 v6 shapeCasts_S1x1x2048_S1x2048 : IVec S1x2048 32)
              broadcasts_S1x2048_S256x2048 (ix2 q p))).setWidth 32) : Ideal .f32) := rfl
  rw [e3, e1, e2]
  exact hot_entry _ q

/-- A row of the operand below the last is that class's row of frame logits. -/
theorem operand_apply_class (v15 : Vec Ideal S1x46x2048 .f32) (j : Fin 47) (c : Fin 46) (hj : j.val = c.val)
    (p : Fin 2048) : operand v15 (ix2 j p) = v15 (ix3 (0 : Fin 1) c p) := by
  unfold operand
  refine (concatenate_pair_apply_left (0 : Fin S47x2048.rank) _ _ concatenates_S46x2048_S1x2048_S47x2048_d0
    (ix2 j p) rfl (ix2 c p) (fun b => ?_)).trans ?_
  · match b with
    | ⟨0, _⟩ => exact hj.symm
    | ⟨1, _⟩ => rfl
  · exact shapeCast_1ab_ab_apply v15 shapeCasts_S1x46x2048_S46x2048 c p

/-- The last row of the operand is the appended row of ones. -/
theorem operand_apply_ones (v15 : Vec Ideal S1x46x2048 .f32) (j : Fin 47) (hj : j.val = 46) (p : Fin 2048) :
    operand v15 (ix2 j p) = 1 := by
  unfold operand
  refine (concatenate_pair_apply_right (0 : Fin S47x2048.rank) _ _ concatenates_S46x2048_S1x2048_S47x2048_d0
    (ix2 j p) rfl rfl (ix2 (0 : Fin 1) p) (fun b hb => ?_) ?_).trans ?_
  · match b, hb with
    | ⟨0, _⟩, hb => exact absurd rfl hb
    | ⟨1, _⟩, _ => rfl
  · show 0 + 46 = j.val
    omega
  · exact Ideal.ofBits_one_bf16

/-! ## The product as a sum over the frames -/

/-- The left factor's index: row from the output's row … -/
theorem lhs_axis0 (i : S256x47.Idx) (k : dot_S256x2048_S47x2048_S256x47_1_1_0_0_n_n.contr.Idx) :
    (dot_S256x2048_S47x2048_S256x47_1_1_0_0_n_n.lhsIdx i k 0).val = (i 0).val := by
  unfold DotDims.lhsIdx
  rw [dif_neg (show ¬(0 : Fin S256x2048.rank) ∈ dot_S256x2048_S47x2048_S256x47_1_1_0_0_n_n.lhsBatch by decide),
    dif_pos (show (0 : Fin S256x2048.rank) ∈ dot_S256x2048_S47x2048_S256x47_1_1_0_0_n_n.lhsNonContracting by decide)]
  rfl
/-- … and frame from the contraction index. -/
theorem lhs_axis1 (i : S256x47.Idx) (k : dot_S256x2048_S47x2048_S256x47_1_1_0_0_n_n.contr.Idx) :
    (dot_S256x2048_S47x2048_S256x47_1_1_0_0_n_n.lhsIdx i k 1).val = (k ⟨0, by decide⟩).val :=
  dot_S256x2048_S47x2048_S256x47_1_1_0_0_n_n.lhsIdx_val_of_single rfl i k
/-- The right factor's index: row from the output's column … -/
theorem rhs_axis0 (i : S256x47.Idx) (k : dot_S256x2048_S47x2048_S256x47_1_1_0_0_n_n.contr.Idx) :
    (dot_S256x2048_S47x2048_S256x47_1_1_0_0_n_n.rhsIdx i k 0).val = (i 1).val := by
  unfold DotDims.rhsIdx
  rw [dif_neg (show ¬(0 : Fin S47x2048.rank) ∈ dot_S256x2048_S47x2048_S256x47_1_1_0_0_n_n.rhsBatch by decide),
    dif_pos (show (0 : Fin S47x2048.rank) ∈ dot_S256x2048_S47x2048_S256x47_1_1_0_0_n_n.rhsNonContracting by decide)]
  rfl
/-- … and frame from the contraction index. -/
theorem rhs_axis1 (i : S256x47.Idx) (k : dot_S256x2048_S47x2048_S256x47_1_1_0_0_n_n.contr.Idx) :
    (dot_S256x2048_S47x2048_S256x47_1_1_0_0_n_n.rhsIdx i k 1).val = (k ⟨0, by decide⟩).val :=
  dot_S256x2048_S47x2048_S256x47_1_1_0_0_n_n.rhsIdx_val_of_single rfl i k

/-- Entry (q, j) of the product is the sum over the frames of the one-hot entry times the operand's. -/
theorem sums_apply (v6 : Vec Ideal S1x1x2048 .i32) (v15 : Vec Ideal S1x46x2048 .f32) (q : Fin 256) (j : Fin 47) :
    sums v6 v15 (ix2 q j) = ∑ p : Fin 2048, onehot v6 (ix2 q p) * operand v15 (ix2 j p) := by
  unfold sums
  generalize onehot v6 = A
  generalize operand v15 = B
  refine (Ideal.matmul_constant_zero_apply dot_S256x2048_S47x2048_S256x47_1_1_0_0_n_n none A B (ix2 q j)).trans ?_
  rw [← Equiv.sum_comp (contrEquiv1 dot_S256x2048_S47x2048_S256x47_1_1_0_0_n_n 2048 rfl rfl).symm]
  refine Finset.sum_congr rfl fun k _ => ?_
  have hk := contrEquiv1_symm_val dot_S256x2048_S47x2048_S256x47_1_1_0_0_n_n 2048 rfl rfl k
  have el : dot_S256x2048_S47x2048_S256x47_1_1_0_0_n_n.lhsIdx (ix2 q j)
      ((contrEquiv1 dot_S256x2048_S47x2048_S256x47_1_1_0_0_n_n 2048 rfl rfl).symm k) = ix2 q k :=
    funext fun a => Fin.ext (by
      match a with
      | ⟨0, _⟩ => exact lhs_axis0 _ _
      | ⟨1, _⟩ => exact (lhs_axis1 _ _).trans hk)
  have er : dot_S256x2048_S47x2048_S256x47_1_1_0_0_n_n.rhsIdx (ix2 q j)
      ((contrEquiv1 dot_S256x2048_S47x2048_S256x47_1_1_0_0_n_n 2048 rfl rfl).symm k) = ix2 j k :=
    funext fun a => Fin.ext (by
      match a with
      | ⟨0, _⟩ => exact rhs_axis0 _ _
      | ⟨1, _⟩ => exact (rhs_axis1 _ _).trans hk)
  rw [el, er]

/-- A column below the last is the phone's segment sum of that class. -/
theorem sums_class (v6 : Vec Ideal S1x1x2048 .i32) (v15 : Vec Ideal S1x46x2048 .f32) (q : Fin 256) (j : Fin 47)
    (c : Fin 46) (hj : j.val = c.val) :
    sums v6 v15 (ix2 q j)
      = segSum (fun c p => v15 (ix3 (0 : Fin 1) c p)) (fun p => v6 (ix3 (0 : Fin 1) (0 : Fin 1) p)) q c := by
  rw [sums_apply]
  unfold segSum
  exact Finset.sum_congr rfl fun p _ => by rw [onehot_apply, operand_apply_class v15 j c hj p]

/-- The last column is the phone's frame count: the indicator times one. -/
theorem sums_count (v6 : Vec Ideal S1x1x2048 .i32) (v15 : Vec Ideal S1x46x2048 .f32) (q : Fin 256) (j : Fin 47)
    (hj : j.val = 46) :
    sums v6 v15 (ix2 q j) = segCnt (fun p => v6 (ix3 (0 : Fin 1) (0 : Fin 1) p)) q := by
  rw [sums_apply]
  unfold segCnt
  exact Finset.sum_congr rfl fun p _ => by rw [onehot_apply, operand_apply_ones v15 j hj p, mul_one]

/-! ## The means -/

/-- Entry (q, c) of the quotient is the specification's mean. -/
theorem meanV_apply (v6 : Vec Ideal S1x1x2048 .i32) (v15 : Vec Ideal S1x46x2048 .f32) (q : Fin 256) (c : Fin 46) :
    meanV v6 v15 (ix2 q c)
      = mean (fun c p => v15 (ix3 (0 : Fin 1) c p)) (fun p => v6 (ix3 (0 : Fin 1) (0 : Fin 1) p)) q c := by
  have h1 : extractStridedSlice S256x46 ![0, 0] (sums v6 v15) slices_S256x47_o0_0_S256x46 (ix2 q c)
      = segSum (fun c p => v15 (ix3 (0 : Fin 1) c p)) (fun p => v6 (ix3 (0 : Fin 1) (0 : Fin 1) p)) q c :=
    (slice2_axis1_apply 0 (sums v6 v15) slices_S256x47_o0_0_S256x46 q c
      (⟨c.val, by have := c.isLt; omega⟩ : Fin 47) (Nat.zero_add _).symm).trans
      (sums_class v6 v15 q _ c rfl)
  have h2 : broadcastTo S256x46
      (maximumf (extractStridedSlice S256x1 ![0, 46] (sums v6 v15) slices_S256x47_o0_46_S256x1 : FVec Ideal S256x1 .f32)
        (broadcast S256x1 (FloatOps.ofBits (F := Ideal) .f32 0x3F800000#32)))
      broadcasts_S256x1_S256x46 (ix2 q c)
      = max (segCnt (fun p => v6 (ix3 (0 : Fin 1) (0 : Fin 1) p)) q) (Ideal.ofBits .f32 0x3F800000#32) :=
    (broadcastTo_a1_ab_apply _ broadcasts_S256x1_S256x46 q c).trans
      (congrArg (fun z => max z (Ideal.ofBits .f32 0x3F800000#32))
        ((slice2_axis1_apply 46 (sums v6 v15) slices_S256x47_o0_46_S256x1 q (0 : Fin 1)
          (⟨46, by omega⟩ : Fin 47) rfl).trans (sums_count v6 v15 q _ rfl)))
  unfold meanV mean
  refine (divf_apply _ _ (ix2 q c)).trans ?_
  exact congrArg₂ Ideal.div h1 h2

/-! ## The reductions along the classes -/

/-- An exponential at an index is the exponential of the element (the operand a variable, so nothing is evaluated). -/
theorem exp_apply {s : Shape} {φ : FTy} (a : FVec Ideal s φ) (i : s.Idx) : exp a i = Ideal.exp (a i) := rfl

/-- The source index over phone q with class c put back on the reduced axis is (q, c). -/
theorem lift_row (q : Fin 256) (c : Fin 46) : reduces_S256x46_S256.lift (ix1 q) c = ix2 q c :=
  funext fun a => Fin.ext (by match a with | ⟨0, _⟩ => rfl | ⟨1, _⟩ => rfl)

/-- Phone q's row maximum is the fold of max over its 46 means from the word for minus infinity. -/
theorem rowMaxV_apply (v6 : Vec Ideal S1x1x2048 .i32) (v15 : Vec Ideal S1x46x2048 .f32) (q : Fin 256) :
    rowMaxV v6 v15 (ix1 q) = rowMax (fun c p => v15 (ix3 (0 : Fin 1) c p)) (fun p => v6 (ix3 (0 : Fin 1) (0 : Fin 1) p)) q := by
  unfold rowMaxV rowMax
  refine (Ideal.multiReduction_maximumf_single (meanV v6 v15) 0xFF800000#32 reduces_S256x46_S256 (.inl rfl) rfl
    (ix1 q)).trans ?_
  refine congrArg (fun f => (Finset.univ : Finset (Fin 46)).fold max (Ideal.ofBits .f32 0xFF800000#32) f) ?_
  funext c
  exact (congrArg (meanV v6 v15) (lift_row q c)).trans (meanV_apply v6 v15 q c)

/-- Entry (q, c) of the differences is the mean less the row maximum. -/
theorem shiftedV_apply (v6 : Vec Ideal S1x1x2048 .i32) (v15 : Vec Ideal S1x46x2048 .f32) (q : Fin 256) (c : Fin 46) :
    shiftedV v6 v15 (ix2 q c) = shifted (fun c p => v15 (ix3 (0 : Fin 1) c p)) (fun p => v6 (ix3 (0 : Fin 1) (0 : Fin 1) p)) q c := by
  have h2 : broadcastTo S256x46 (shapeCast S256x1 (rowMaxV v6 v15) shapeCasts_S256_S256x1 : FVec Ideal S256x1 .f32)
      broadcasts_S256x1_S256x46 (ix2 q c) = rowMax (fun c p => v15 (ix3 (0 : Fin 1) c p)) (fun p => v6 (ix3 (0 : Fin 1) (0 : Fin 1) p)) q :=
    (broadcastTo_a1_ab_apply _ broadcasts_S256x1_S256x46 q c).trans
      ((shapeCast_a_a1_apply (rowMaxV v6 v15) shapeCasts_S256_S256x1 q (0 : Fin 1)).trans (rowMaxV_apply v6 v15 q))
  exact congrArg₂ (fun a b : EReal => a - b) (meanV_apply v6 v15 q c) h2

/-- Phone q's sum of exponentials is the sum over the 46 classes of the exponential of the difference. -/
theorem sumExpV_apply (v6 : Vec Ideal S1x1x2048 .i32) (v15 : Vec Ideal S1x46x2048 .f32) (q : Fin 256) :
    sumExpV v6 v15 (ix1 q) = ∑ c : Fin 46, Ideal.exp (shifted (fun c p => v15 (ix3 (0 : Fin 1) c p)) (fun p => v6 (ix3 (0 : Fin 1) (0 : Fin 1) p)) q c) := by
  unfold sumExpV
  refine (Ideal.multiReduction_add_single (exp (shiftedV v6 v15)) 0x00000000#32 reduces_S256x46_S256 (.inl rfl) rfl
    (ix1 q)).trans ?_
  refine Finset.sum_congr rfl fun c _ => ?_
  exact (exp_apply _ _).trans
    (congrArg Ideal.exp ((congrArg (shiftedV v6 v15) (lift_row q c)).trans (shiftedV_apply v6 v15 q c)))

/-- Entry (q, c) of the log-probabilities. -/
theorem logpV_apply (v6 : Vec Ideal S1x1x2048 .i32) (v15 : Vec Ideal S1x46x2048 .f32) (q : Fin 256) (c : Fin 46) :
    logpV v6 v15 (ix2 q c) = logp (fun c p => v15 (ix3 (0 : Fin 1) c p)) (fun p => v6 (ix3 (0 : Fin 1) (0 : Fin 1) p)) q c := by
  have h2 : broadcastTo S256x46
      (log (shapeCast S256x1 (sumExpV v6 v15) shapeCasts_S256_S256x1 : FVec Ideal S256x1 .f32))
      broadcasts_S256x1_S256x46 (ix2 q c) = lse (fun c p => v15 (ix3 (0 : Fin 1) c p)) (fun p => v6 (ix3 (0 : Fin 1) (0 : Fin 1) p)) q :=
    (broadcastTo_a1_ab_apply _ broadcasts_S256x1_S256x46 q c).trans
      (congrArg Ideal.log
        ((shapeCast_a_a1_apply (sumExpV v6 v15) shapeCasts_S256_S256x1 q (0 : Fin 1)).trans (sumExpV_apply v6 v15 q)))
  exact congrArg₂ (fun a b : EReal => a - b) (shiftedV_apply v6 v15 q c) h2

/-! ## The selection by class number, and its sum -/

/-- Every entry of phone q's row of target words is the phone's target word. -/
theorem targetV_apply (v38 : Vec Ideal S1x1x256 .i32) (q : Fin 256) (c : Fin 46) :
    targetV v38 (ix2 q c) = v38 (ix3 (0 : Fin 1) (0 : Fin 1) q) := by
  unfold targetV
  exact (broadcastTo_a1_ab_apply _ broadcasts_S256x1_S256x46 q c).trans
    ((transpose_ix2_apply (shapeCast S1x256 v38 shapeCasts_S1x1x256_S1x256 : IVec S1x256 32)
        transposes_S1x256_p1_0_S256x1 q (0 : Fin 1)).trans
      (shapeCast_1ab_ab_apply v38 shapeCasts_S1x1x256_S1x256 (0 : Fin 1) q))

/-- Entry (q, c) of the selection: the log-probability where class number c is the target word, else zero. -/
theorem chosenV_apply (v6 : Vec Ideal S1x1x2048 .i32) (v15 : Vec Ideal S1x46x2048 .f32) (v38 : Vec Ideal S1x1x256 .i32)
    (q : Fin 256) (c : Fin 46) :
    chosenV v6 v15 v38 (ix2 q c)
      = if BitVec.ofNat 32 c.val = v38 (ix3 (0 : Fin 1) (0 : Fin 1) q) then logp (fun c p => v15 (ix3 (0 : Fin 1) c p)) (fun p => v6 (ix3 (0 : Fin 1) (0 : Fin 1) p)) q c else 0 := by
  have e : chosenV v6 v15 v38 (ix2 q c)
      = Scalar.select
          (IntOp.cmpi .eq (iota .tc S256x46 32 [1] iota_S256x46_d1_w32 (ix2 q c)) (targetV v38 (ix2 q c)))
          (logpV v6 v15 (ix2 q c)) (Ideal.ofBits .f32 0x00000000#32) := rfl
  rw [e, iota_single_apply, targetV_apply, logpV_apply, Ideal.ofBits_zero_f32]
  exact select_class c _ _ _

/-- Entry (0, q) of the picked row is the specification's pick at the phone's target word. -/
theorem pickedV_apply (v6 : Vec Ideal S1x1x2048 .i32) (v15 : Vec Ideal S1x46x2048 .f32) (v38 : Vec Ideal S1x1x256 .i32)
    (q : Fin 256) :
    pickedV v6 v15 v38 (ix2 (0 : Fin 1) q) = pick (fun c p => v15 (ix3 (0 : Fin 1) c p)) (fun p => v6 (ix3 (0 : Fin 1) (0 : Fin 1) p)) (v38 (ix3 (0 : Fin 1) (0 : Fin 1) q)) q := by
  unfold pickedV pick
  refine (transpose_ix2_apply _ transposes_S256x1_p1_0_S1x256 (0 : Fin 1) q).trans ?_
  refine (shapeCast_a_a1_apply _ shapeCasts_S256_S256x1 q (0 : Fin 1)).trans ?_
  refine (Ideal.multiReduction_add_single (chosenV v6 v15 v38) 0x00000000#32 reduces_S256x46_S256 (.inl rfl) rfl
    (ix1 q)).trans ?_
  refine Finset.sum_congr rfl fun c _ => ?_
  exact (congrArg (chosenV v6 v15 v38) (lift_row q c)).trans (chosenV_apply v6 v15 v38 q c)

/-! ## The mask, and the row payload -/

/-- The stored row at (0, 0, q) is the picked row's entry times the mask's. -/
theorem pay2_apply (v47 : FVec Ideal S1x256 .f32) (v49 : Vec Ideal S1x1x256 .f32) (q : Fin 256) :
    k0_pay2 (F := Ideal) v47 v49 (ix3 (0 : Fin 1) (0 : Fin 1) q)
      = v47 (ix2 (0 : Fin 1) q) * v49 (ix3 (0 : Fin 1) (0 : Fin 1) q) := by
  have e : k0_pay2 (F := Ideal) v47 v49
      = shapeCast S1x1x256
          (mulf v47 (shapeCast S1x256 v49 shapeCasts_S1x1x256_S1x256 : FVec Ideal S1x256 .f32))
          shapeCasts_S1x256_S1x1x256 := rfl
  rw [e]
  refine (shapeCast_ab_1ab_apply _ shapeCasts_S1x256_S1x1x256 (0 : Fin 1) (0 : Fin 1) q).trans ?_
  exact congrArg (fun z => v47 (ix2 (0 : Fin 1) q) * z)
    (shapeCast_1ab_ab_apply v49 shapeCasts_S1x1x256_S1x256 (0 : Fin 1) q)

/-- THE ROW PAYLOAD AT A PHONE: what the kernel stores for phone q of a batch row is the specification's pick at the
    phone's target word times the phone's mask value. -/
theorem row_apply (v6 : Vec Ideal S1x1x2048 .i32) (v15 : Vec Ideal S1x46x2048 .f32) (v38 : Vec Ideal S1x1x256 .i32)
    (v49 : Vec Ideal S1x1x256 .f32) (q : Fin 256) :
    k0_pay2 (F := Ideal)
        (k0_pay3 (F := Ideal) k0_pay1 (iota .tc S256x46 32 [1] iota_S256x46_d1_w32) v6 v15 v38) v49
        (ix3 (0 : Fin 1) (0 : Fin 1) q)
      = pick (fun c p => v15 (ix3 (0 : Fin 1) c p)) (fun p => v6 (ix3 (0 : Fin 1) (0 : Fin 1) p)) (v38 (ix3 (0 : Fin 1) (0 : Fin 1) q)) q * v49 (ix3 (0 : Fin 1) (0 : Fin 1) q) := by
  rw [pay2_apply, pay3_eq, pickedV_apply]

end Cert.SegCE.KernelRow

end
-- ==== Proof.KernelOut.lean ====
/-
  What the kernel's body leaves in the output block, as one function of its four input blocks.

  The body is one counted loop of sixteen trips. Trip k loads row k of each input block, computes from them the
  256 masked picked log-probabilities of that row (the row payload), and stores them as row k of the output block;
  nothing else is stored. So the stores of the sixteen trips tile the block row by row, and the block the body
  leaves is, at row b and phone q, the row payload of the rows b of the input blocks at phone q (`blockVal`).

  The run that the frame certificate found states the block as the stores' pieces read back; each trip's piece is
  read here once (its rectangle is row k, its payload the row payload of the loads at row k), the pieces of the
  trips before k by induction on k, and the pieces-to-function lemma of the library then gives the block.
-/
import proofs.«411134_j20950850470178_3_alg».proof.Proof.Gen.KernelIdeal.Frame
import proofs.«411134_j20950850470178_3_alg».proof.Proof.KernelRow
import Idealize.ShloMosaic.Lib.Pipeline.Value
import Idealize.ShloMosaic.Lib.ValueIdx
import Idealize.ShloMosaic.Lib.Tactic

set_option maxRecDepth 16384

noncomputable section

namespace Cert.SegCE.KernelOut

open Idealize.ShloMosaic Idealize.ShloMosaic.TcCoe Idealize.ShloMosaic.ValueIdx Idealize.ShloMosaic.Tactic Idealize.SL.Sem
open Cert.KernelIdeal Cert.KernelIdeal.Gen Cert.SegCE

/-- Row `y 0`, phone `y 2` of the output block: the masked picked log-probability computed from rows `y 0` of the
    input, assignment, target and mask blocks. -/
def blockVal (x0 : Vec Ideal S16x46x2048 .f32) (x1 : Vec Ideal S16x1x2048 .i32) (x2 : Vec Ideal S16x1x256 .i32) (x3 : Vec Ideal S16x1x256 .f32) : Vec Ideal S16x1x256 .f32 :=
  fun y => pick (fun cl p => x0 (ix3 (y 0) cl p)) (fun p => x1 (ix3 (y 0) (0 : Fin 1) p)) (x2 (ix3 (y 0) (0 : Fin 1) (y 2))) (y 2)
    * x3 (ix3 (y 0) (0 : Fin 1) (y 2))

/-- The class-number iota the loop's region reads. -/
abbrev clsIota : IVec S256x46 32 := iota .tc S256x46 32 [1] iota_S256x46_d1_w32

/-- The loop has sixteen trips. -/
theorem trips_eq : k0_t1_loop.trips = 16 := by decide

/-- A load of row `k` of a [16, n1, n2] block through the unit rectangle at offsets (k, 0, 0), read at (0, a, b),
    is the block at (k, a, b): a unit rectangle's index is its offset plus the coordinate. -/
theorem ld_row {α : Type} {n1 n2 : Nat} (X : (⟨3, ![16, n1, n2]⟩ : Shape).Idx → α) (off : Fin 3 → Nat) (k : Fin 16)
    (hoff : off = ![k.val, 0, 0])
    (inb : ∀ d, off d + (⟨3, ![1, n1, n2]⟩ : Shape).size d ≤ (⟨3, ![16, n1, n2]⟩ : Shape).size d) (a : Fin n1) (b : Fin n2) :
    X ((Rect.unit (s := (⟨3, ![16, n1, n2]⟩ : Shape)) off (⟨3, ![1, n1, n2]⟩ : Shape).size inb).idx (ix3 (0 : Fin 1) a b))
      = X (ix3 k a b) := by
  subst hoff
  congr 1
  funext d
  apply Fin.ext
  match d with
  | ⟨0, _⟩ => show k.val + 1 * 0 = k.val; omega
  | ⟨1, _⟩ => show 0 + 1 * a.val = a.val; omega
  | ⟨2, _⟩ => show 0 + 1 * b.val = b.val; omega

/-- The one piece trip `k` stores: row `k` of the block, the row payload of the loads at row `k`. -/
theorem trip_piece (𝒱 : Variants) (c : Dev nD) (bd : Option 𝒱.V) (i : grid0.Coords) (a1 : Memref sig .tc .vmem S16x46x2048 .f32) (h1 : a1.IsWhole) (a2 : Memref sig .tc .vmem S16x1x2048 .i32) (h2 : a2.IsWhole) (a3 : Memref sig .tc .vmem S16x1x256 .i32) (h3 : a3.IsWhole) (a4 : Memref sig .tc .vmem S16x1x256 .f32) (h4 : a4.IsWhole) (a5 : Memref sig .tc .vmem S16x1x256 .f32) (h5 : a5.IsWhole) (v3 : IVec S256x46 32)
    (X1 : BufTy.Contents (Elt Ideal) a1.view.ty) (X2 : BufTy.Contents (Elt Ideal) a2.view.ty) (X3 : BufTy.Contents (Elt Ideal) a3.view.ty) (X4 : BufTy.Contents (Elt Ideal) a4.view.ty)
    (k : Fin k0_t1_loop.trips) :
    tripL_k0_t1 (F := Ideal) 𝒱 c bd i a1 h1 a2 h2 a3 h3 a4 h4 a5 h5 v3 X1 X2 X3 X4 k
      = [⟨Rect.unit (s := S16x1x256) (k0_off3 k) S1x1x256.size (k0_off3_inb k),
          k0_pay2 (F := Ideal) (k0_pay3 (F := Ideal) k0_pay1 v3
              (View.ld (a2.view.read (Elt Ideal) X2) (Rect.unit (s := S16x1x2048) (k0_off1 k) S1x1x2048.size (k0_off1_inb k)))
              (View.ld (a1.view.read (Elt Ideal) X1) (Rect.unit (s := S16x46x2048) (k0_off2 k) S1x46x2048.size (k0_off2_inb k)))
              (View.ld (a3.view.read (Elt Ideal) X3) (Rect.unit (s := S16x1x256) (k0_off3 k) S1x1x256.size (k0_off3_inb k))))
            (View.ld (a4.view.read (Elt Ideal) X4) (Rect.unit (s := S16x1x256) (k0_off3 k) S1x1x256.size (k0_off3_inb k)))⟩] := by
  unfold tripL_k0_t1 trip_k0_t1
  dsimp only
  sl_unfold_words
  rfl

/-- The whole body's pieces are the loop's: those of its sixteen trips, the contents of the input blocks standing
    under the staging memrefs. -/
theorem run_pieces (c : Dev nD) (i : grid0.Coords) (a1 : Memref sig .tc .vmem S16x46x2048 .f32) (h1 : a1.IsWhole) (a2 : Memref sig .tc .vmem S16x1x2048 .i32) (h2 : a2.IsWhole) (a3 : Memref sig .tc .vmem S16x1x256 .i32) (h3 : a3.IsWhole) (a4 : Memref sig .tc .vmem S16x1x256 .f32) (h4 : a4.IsWhole) (a5 : Memref sig .tc .vmem S16x1x256 .f32) (h5 : a5.IsWhole) (x0 : Vec Ideal S16x46x2048 .f32) (x1 : Vec Ideal S16x1x2048 .i32) (x2 : Vec Ideal S16x1x256 .i32) (x3 : Vec Ideal S16x1x256 .f32) :
    (kernelRun0_A (F := Ideal) c i a1 h1 a2 h2 a3 h3 a4 h4 a5 h5 x0 x1 x2 x3).1
      = pb_k0_t1 (F := Ideal) Variants.none c none i a1 h1 a2 h2 a3 h3 a4 h4 a5 h5 clsIota (h1.unread x0) (h2.unread x1) (h3.unread x2) (h4.unread x3) 16 := by
  unfold kernelRun0_A
  dsimp only
  sl_unfold_words
  rfl

/-- Trip `k`'s piece agrees with the block function: its payload at phone `q` is the block function at row `k`,
    phone `q` — the row loads read the blocks' rows `k`. -/
theorem piece_agree (c : Dev nD) (i : grid0.Coords) (a1 : Memref sig .tc .vmem S16x46x2048 .f32) (h1 : a1.IsWhole) (a2 : Memref sig .tc .vmem S16x1x2048 .i32) (h2 : a2.IsWhole) (a3 : Memref sig .tc .vmem S16x1x256 .i32) (h3 : a3.IsWhole) (a4 : Memref sig .tc .vmem S16x1x256 .f32) (h4 : a4.IsWhole) (a5 : Memref sig .tc .vmem S16x1x256 .f32) (h5 : a5.IsWhole) (x0 : Vec Ideal S16x46x2048 .f32) (x1 : Vec Ideal S16x1x2048 .i32) (x2 : Vec Ideal S16x1x256 .i32) (x3 : Vec Ideal S16x1x256 .f32) (k : Fin k0_t1_loop.trips) :
    ∀ p ∈ tripL_k0_t1 (F := Ideal) Variants.none c none i a1 h1 a2 h2 a3 h3 a4 h4 a5 h5 clsIota (h1.unread x0) (h2.unread x1) (h3.unread x2) (h4.unread x3) k,
      ∀ y : p.1.shape.Idx, p.2 y = blockVal x0 x1 x2 x3 (p.1.emb y) := by
  intro p hp
  rw [trip_piece, List.mem_singleton] at hp
  subst hp
  intro y
  have hk : k.val < 16 := by have := k.isLt; have := trips_eq; omega
  have ho := k0_off3_eq k
  obtain ⟨q, rfl⟩ : ∃ q : Fin 256, y = ix3 (0 : Fin 1) (0 : Fin 1) q :=
    ⟨y 2, by
      funext d
      match d with
      | ⟨0, hd⟩ => have hlt : (y ⟨0, hd⟩).val < 1 := (y ⟨0, hd⟩).isLt; exact Fin.ext (by show (y ⟨0, hd⟩).val = 0; omega)
      | ⟨1, hd⟩ => have hlt : (y ⟨1, hd⟩).val < 1 := (y ⟨1, hd⟩).isLt; exact Fin.ext (by show (y ⟨1, hd⟩).val = 0; omega)
      | ⟨2, _⟩ => rfl⟩
  have he : (Rect.unit (s := S16x1x256) (k0_off3 k) S1x1x256.size (k0_off3_inb k)).emb (ix3 (0 : Fin 1) (0 : Fin 1) q)
      = ix3 (⟨k.val, hk⟩ : Fin 16) (0 : Fin 1) q := by
    funext d
    apply Fin.ext
    match d with
    | ⟨0, _⟩ => show (k0_off3 k) 0 + 1 * 0 = k.val; rw [ho]; show k.val + 1 * 0 = k.val; omega
    | ⟨1, _⟩ => show (k0_off3 k) 1 + 1 * 0 = 0; rw [ho]; rfl
    | ⟨2, _⟩ => show (k0_off3 k) 2 + 1 * q.val = q.val; rw [ho]; show 0 + 1 * q.val = q.val; omega
  show k0_pay2 (F := Ideal) (k0_pay3 (F := Ideal) k0_pay1 clsIota
        (View.ld (a2.view.read (Elt Ideal) (h2.unread x1)) (Rect.unit (s := S16x1x2048) (k0_off1 k) S1x1x2048.size (k0_off1_inb k)))
        (View.ld (a1.view.read (Elt Ideal) (h1.unread x0)) (Rect.unit (s := S16x46x2048) (k0_off2 k) S1x46x2048.size (k0_off2_inb k)))
        (View.ld (a3.view.read (Elt Ideal) (h3.unread x2)) (Rect.unit (s := S16x1x256) (k0_off3 k) S1x1x256.size (k0_off3_inb k))))
      (View.ld (a4.view.read (Elt Ideal) (h4.unread x3)) (Rect.unit (s := S16x1x256) (k0_off3 k) S1x1x256.size (k0_off3_inb k)))
      (ix3 (0 : Fin 1) (0 : Fin 1) q) = blockVal x0 x1 x2 x3 _
  rw [he, h1.read_unread, h2.read_unread, h3.read_unread, h4.read_unread]
  refine (Cert.SegCE.KernelRow.row_apply _ _ _ _ q).trans ?_
  show _ = pick (fun cl p => x0 (ix3 (⟨k.val, hk⟩ : Fin 16) cl p)) (fun p => x1 (ix3 (⟨k.val, hk⟩ : Fin 16) (0 : Fin 1) p))
      (x2 (ix3 (⟨k.val, hk⟩ : Fin 16) (0 : Fin 1) q)) q * x3 (ix3 (⟨k.val, hk⟩ : Fin 16) (0 : Fin 1) q)
  have eX : (fun (cl : Fin 46) (p : Fin 2048) => View.ld x0 (Rect.unit (s := S16x46x2048) (k0_off2 k) S1x46x2048.size (k0_off2_inb k)) (ix3 (0 : Fin 1) cl p))
      = fun cl p => x0 (ix3 (⟨k.val, hk⟩ : Fin 16) cl p) :=
    funext fun cl => funext fun p => ld_row x0 _ ⟨k.val, hk⟩ (k0_off2_eq k) _ cl p
  have eA : (fun (p : Fin 2048) => View.ld x1 (Rect.unit (s := S16x1x2048) (k0_off1 k) S1x1x2048.size (k0_off1_inb k)) (ix3 (0 : Fin 1) (0 : Fin 1) p))
      = fun p => x1 (ix3 (⟨k.val, hk⟩ : Fin 16) (0 : Fin 1) p) :=
    funext fun p => ld_row x1 _ ⟨k.val, hk⟩ (k0_off1_eq k) _ (0 : Fin 1) p
  have eT : View.ld x2 (Rect.unit (s := S16x1x256) (k0_off3 k) S1x1x256.size (k0_off3_inb k)) (ix3 (0 : Fin 1) (0 : Fin 1) q)
      = x2 (ix3 (⟨k.val, hk⟩ : Fin 16) (0 : Fin 1) q) := ld_row x2 _ ⟨k.val, hk⟩ ho _ (0 : Fin 1) q
  have eM : View.ld x3 (Rect.unit (s := S16x1x256) (k0_off3 k) S1x1x256.size (k0_off3_inb k)) (ix3 (0 : Fin 1) (0 : Fin 1) q)
      = x3 (ix3 (⟨k.val, hk⟩ : Fin 16) (0 : Fin 1) q) := ld_row x3 _ ⟨k.val, hk⟩ ho _ (0 : Fin 1) q
  rw [eX, eA, eT, eM]

/-- So do all the pieces of the trips before `n`, by induction on `n`. -/
theorem pb_agree (c : Dev nD) (i : grid0.Coords) (a1 : Memref sig .tc .vmem S16x46x2048 .f32) (h1 : a1.IsWhole) (a2 : Memref sig .tc .vmem S16x1x2048 .i32) (h2 : a2.IsWhole) (a3 : Memref sig .tc .vmem S16x1x256 .i32) (h3 : a3.IsWhole) (a4 : Memref sig .tc .vmem S16x1x256 .f32) (h4 : a4.IsWhole) (a5 : Memref sig .tc .vmem S16x1x256 .f32) (h5 : a5.IsWhole) (x0 : Vec Ideal S16x46x2048 .f32) (x1 : Vec Ideal S16x1x2048 .i32) (x2 : Vec Ideal S16x1x256 .i32) (x3 : Vec Ideal S16x1x256 .f32) :
    ∀ (n : ℕ), n ≤ 16 → ∀ p ∈ pb_k0_t1 (F := Ideal) Variants.none c none i a1 h1 a2 h2 a3 h3 a4 h4 a5 h5 clsIota (h1.unread x0) (h2.unread x1) (h3.unread x2) (h4.unread x3) n,
      ∀ y : p.1.shape.Idx, p.2 y = blockVal x0 x1 x2 x3 (p.1.emb y)
  | 0, _ => by
    intro p hp
    have e0 : pb_k0_t1 (F := Ideal) Variants.none c none i a1 h1 a2 h2 a3 h3 a4 h4 a5 h5 clsIota (h1.unread x0) (h2.unread x1) (h3.unread x2) (h4.unread x3) 0 = [] := rfl
    rw [e0] at hp
    exact absurd hp List.not_mem_nil
  | n + 1, hn => by
    intro p hp
    have hk : n < k0_t1_loop.trips := by rw [trips_eq]; omega
    have e : pb_k0_t1 (F := Ideal) Variants.none c none i a1 h1 a2 h2 a3 h3 a4 h4 a5 h5 clsIota (h1.unread x0) (h2.unread x1) (h3.unread x2) (h4.unread x3) (n + 1)
        = tripL_k0_t1 (F := Ideal) Variants.none c none i a1 h1 a2 h2 a3 h3 a4 h4 a5 h5 clsIota (h1.unread x0) (h2.unread x1) (h3.unread x2) (h4.unread x3) ⟨n, hk⟩
          ++ pb_k0_t1 (F := Ideal) Variants.none c none i a1 h1 a2 h2 a3 h3 a4 h4 a5 h5 clsIota (h1.unread x0) (h2.unread x1) (h3.unread x2) (h4.unread x3) n :=
      pb_k0_t1_succ (F := Ideal) Variants.none c none i a1 h1 a2 h2 a3 h3 a4 h4 a5 h5 clsIota (h1.unread x0) (h2.unread x1) (h3.unread x2) (h4.unread x3) ⟨n, hk⟩
    rw [e] at hp
    rcases List.mem_append.mp hp with h | h
    · exact piece_agree c i a1 h1 a2 h2 a3 h3 a4 h4 a5 h5 x0 x1 x2 x3 ⟨n, hk⟩ p h
    · exact pb_agree c i a1 h1 a2 h2 a3 h3 a4 h4 a5 h5 x0 x1 x2 x3 n (by omega) p h

/-- What the body leaves in the output block is the block function of its four input blocks. -/
theorem out_eq (c : Dev nD) (i : grid0.Coords) (a1 : Memref sig .tc .vmem S16x46x2048 .f32) (h1 : a1.IsWhole) (a2 : Memref sig .tc .vmem S16x1x2048 .i32) (h2 : a2.IsWhole) (a3 : Memref sig .tc .vmem S16x1x256 .i32) (h3 : a3.IsWhole) (a4 : Memref sig .tc .vmem S16x1x256 .f32) (h4 : a4.IsWhole) (a5 : Memref sig .tc .vmem S16x1x256 .f32) (h5 : a5.IsWhole) (x0 : Vec Ideal S16x46x2048 .f32) (x1 : Vec Ideal S16x1x2048 .i32) (x2 : Vec Ideal S16x1x256 .i32) (x3 : Vec Ideal S16x1x256 .f32) :
    out0_A_4 (F := Ideal) c i a1 h1 a2 h2 a3 h3 a4 h4 a5 h5 x0 x1 x2 x3 = blockVal x0 x1 x2 x3 := by
  unfold out0_A_4
  rw [View.read_writes_eq_canon _ _ _ (cover0_A_4 c i a1 h1 a2 h2 a3 h3 a4 h4 a5 h5 x0 x1 x2 x3)]
  funext y
  refine View.canon_apply_of_pieces (blockVal x0 x1 x2 x3) _ ?_ y (cover0_A_4 c i a1 h1 a2 h2 a3 h3 a4 h4 a5 h5 x0 x1 x2 x3 y)
  rw [run_pieces]
  exact pb_agree c i a1 h1 a2 h2 a3 h3 a4 h4 a5 h5 x0 x1 x2 x3 16 (Nat.le_refl 16)

end Cert.SegCE.KernelOut

end
-- ==== Proof.KernelArr.lean ====
/-
  The arrays the kernel's region finds, and the rows of its input blocks, in terms of the four arguments.

  Before the region the host inserts a unit middle axis into the assignment ([64,2048] to [64,1,2048]) and the
  target ([64,256] to [64,1,256]) and converts the mask to 0/1 floats and does the same to it; the input is
  staged as it is. Each of these arrays, read at (n, 0, j), is the argument read at (n, j): the reshape keeps the
  row-major position, n * width + j on both sides.

  The grid has four points; point t stages rows 16 t .. 16 t + 15 of every array. So row b of a block at point t,
  read at its remaining coordinates, is the array read at row 16 t + b.
-/
import proofs.«411134_j20950850470178_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.SegCE.KernelArr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The arrays the region finds -/

/-- The assignment as the region finds it: the argument with a unit middle axis. -/
theorem V_assign (c : Dev nD) :
    V m c main_v0 = shapeCast S64x1x2048 (m ((c : Thread nD τ).loc main_arg2)) shapeCasts_S64x2048_S64x1x2048 := by
  show StableHlo.after hostOps0 (fun b => m (c, b)) (Proc.devRef .tc main_v0) = _
  after_results
  rfl

/-- The target as the region finds it: the argument with a unit middle axis. -/
theorem V_target (c : Dev nD) :
    V m c main_v1 = shapeCast S64x1x256 (m ((c : Thread nD τ).loc main_arg1)) shapeCasts_S64x256_S64x1x256 := by
  show StableHlo.after hostOps0 (fun b => m (c, b)) (Proc.devRef .tc main_v1) = _
  after_results
  rfl

/-- The mask as the region finds it: the argument as 0/1 floats, with a unit middle axis. -/
theorem V_mask (c : Dev nD) :
    V m c main_v3 = shapeCast S64x1x256 (uitofp (F := Ideal) .f32 (m ((c : Thread nD τ).loc main_arg3))) shapeCasts_S64x256_S64x1x256 := by
  show StableHlo.after hostOps0 (fun b => m (c, b)) (Proc.devRef .tc main_v3) = _
  after_results
  rfl

/-- Inserting a unit middle axis keeps the row-major position: (n, 0, j) of [64,1,w] is (n, j) of [64,w]. -/
theorem mid_apply {α : Type} {w : Nat} (x : (⟨2, ![64, w]⟩ : Shape).Idx → α)
    (h : (⟨2, ![64, w]⟩ : Shape).ShapeCasts ⟨3, ![64, 1, w]⟩) (n : Fin 64) (j : Fin w) :
    shapeCast (⟨3, ![64, 1, w]⟩ : Shape) x h (ix3 n (0 : Fin 1) j) = x (ix2 n j) :=
  shapeCast_apply x h (ix3 n (0 : Fin 1) j) (ix2 n j) (by
    rw [Shape.rowMajor_val_two, Shape.rowMajor_val_three]
    show n.val * w + j.val = (n.val * 1 + 0) * w + j.val
    rw [Nat.mul_one, Nat.add_zero])

theorem V_assign_apply (c : Dev nD) (n : Fin 64) (p : Fin 2048) :
    V m c main_v0 (ix3 n (0 : Fin 1) p) = m ((c : Thread nD τ).loc main_arg2) (ix2 n p) := by
  rw [V_assign]; exact mid_apply _ _ n p

theorem V_target_apply (c : Dev nD) (n : Fin 64) (q : Fin 256) :
    V m c main_v1 (ix3 n (0 : Fin 1) q) = m ((c : Thread nD τ).loc main_arg1) (ix2 n q) := by
  rw [V_target]; exact mid_apply _ _ n q

theorem V_mask_apply (c : Dev nD) (n : Fin 64) (q : Fin 256) :
    V m c main_v3 (ix3 n (0 : Fin 1) q) = FloatOps.uitofp (F := Ideal) .f32 (m ((c : Thread nD τ).loc main_arg3) (ix2 n q)) := by
  rw [V_mask]; exact mid_apply _ _ n q

/-! ## The blocks' rows -/

/-- The array row that is row `b` of the block at grid point `t`. -/
def row (t : Fin cfg0.N) (b : Fin 16) : Fin 64 :=
  ⟨16 * t.val + b.val, by have hN : cfg0.N = 4 := N_0; have := t.isLt; have := b.isLt; omega⟩

/-- The four input blocks at point `t`, at their literal types. -/
abbrev xblk (c : Dev nD) (t : Fin cfg0.N) : Vec Ideal S16x46x2048 .f32 := iblk m c 0 t
abbrev ablk (c : Dev nD) (t : Fin cfg0.N) : Vec Ideal S16x1x2048 .i32 := iblk m c 1 t
abbrev tblk (c : Dev nD) (t : Fin cfg0.N) : Vec Ideal S16x1x256 .i32 := iblk m c 2 t
abbrev mblk (c : Dev nD) (t : Fin cfg0.N) : Vec Ideal S16x1x256 .f32 := iblk m c 3 t

/-- Every window's block index at point `t` is (t, 0, 0). -/
theorem index_facts (t : Fin cfg0.N) :
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0) := by
  rcases fin_N0 t with rfl | rfl | rfl | rfl <;> decide

theorem xblk_apply (c : Dev nD) (t : Fin cfg0.N) (b : Fin 16) (cl : Fin 46) (p : Fin 2048) :
    xblk m c t (ix3 b cl p) = m ((c : Thread nD τ).loc main_arg0) (ix3 (row t b) cl p) := by
  have hi := (index_facts t).1
  show iblk m c 0 t (ix3 b cl p) = _
  unfold iblk
  rw [View.read_apply]
  show V m c main_arg0 _ = _
  rw [V_main_arg0]
  congr 1
  funext a
  apply Fin.ext
  match a with
  | ⟨0, _⟩ => show win0_0.index t 0 * 16 + 1 * b.val = 16 * t.val + b.val; rw [hi.1]; omega
  | ⟨1, _⟩ => show win0_0.index t 1 * 46 + 1 * cl.val = cl.val; rw [hi.2.1]; omega
  | ⟨2, _⟩ => show win0_0.index t 2 * 2048 + 1 * p.val = p.val; rw [hi.2.2]; omega

theorem ablk_apply (c : Dev nD) (t : Fin cfg0.N) (b : Fin 16) (p : Fin 2048) :
    ablk m c t (ix3 b (0 : Fin 1) p) = m ((c : Thread nD τ).loc main_arg2) (ix2 (row t b) p) := by
  have hi := (index_facts t).2.1
  rw [← V_assign_apply m c (row t b) p]
  show iblk m c 1 t (ix3 b (0 : Fin 1) p) = _
  unfold iblk
  rw [View.read_apply]
  show V m c main_v0 _ = V m c main_v0 _
  congr 1
  funext a
  apply Fin.ext
  match a with
  | ⟨0, _⟩ => show win0_1.index t 0 * 16 + 1 * b.val = 16 * t.val + b.val; rw [hi.1]; omega
  | ⟨1, _⟩ => show win0_1.index t 1 * 1 + 1 * 0 = 0; have := hi.2.1; omega
  | ⟨2, _⟩ => show win0_1.index t 2 * 2048 + 1 * p.val = p.val; rw [hi.2.2]; omega

theorem tblk_apply (c : Dev nD) (t : Fin cfg0.N) (b : Fin 16) (q : Fin 256) :
    tblk m c t (ix3 b (0 : Fin 1) q) = m ((c : Thread nD τ).loc main_arg1) (ix2 (row t b) q) := by
  have hi := (index_facts t).2.2.1
  rw [← V_target_apply m c (row t b) q]
  show iblk m c 2 t (ix3 b (0 : Fin 1) q) = _
  unfold iblk
  rw [View.read_apply]
  show V m c main_v1 _ = V m c main_v1 _
  congr 1
  funext a
  apply Fin.ext
  match a with
  | ⟨0, _⟩ => show win0_2.index t 0 * 16 + 1 * b.val = 16 * t.val + b.val; rw [hi.1]; omega
  | ⟨1, _⟩ => show win0_2.index t 1 * 1 + 1 * 0 = 0; have := hi.2.1; omega
  | ⟨2, _⟩ => show win0_2.index t 2 * 256 + 1 * q.val = q.val; rw [hi.2.2]; omega

theorem mblk_apply (c : Dev nD) (t : Fin cfg0.N) (b : Fin 16) (q : Fin 256) :
    mblk m c t (ix3 b (0 : Fin 1) q)
      = FloatOps.uitofp (F := Ideal) .f32 (m ((c : Thread nD τ).loc main_arg3) (ix2 (row t b) q)) := by
  have hi := (index_facts t).2.2.2.1
  rw [← V_mask_apply m c (row t b) q]
  show iblk m c 3 t (ix3 b (0 : Fin 1) q) = _
  unfold iblk
  rw [View.read_apply]
  show V m c main_v3 _ = V m c main_v3 _
  congr 1
  funext a
  apply Fin.ext
  match a with
  | ⟨0, _⟩ => show win0_3.index t 0 * 16 + 1 * b.val = 16 * t.val + b.val; rw [hi.1]; omega
  | ⟨1, _⟩ => show win0_3.index t 1 * 1 + 1 * 0 = 0; have := hi.2.1; omega
  | ⟨2, _⟩ => show win0_3.index t 2 * 256 + 1 * q.val = q.val; rw [hi.2.2]; omega

end Cert.SegCE.KernelArr

end
-- ==== Proof.SumMid.lean ====
/-
  A sum over the index set of a rank-three shape whose middle axis has extent one is the double sum over its
  first and last coordinates: the index set is the product of the two coordinate ranges, the middle coordinate
  being zero.
-/
import Idealize.ShloMosaic.Lib.ValueIdx

namespace Cert.SegCE.SumMid

open Idealize.ShloMosaic Idealize.ShloMosaic.ValueIdx

/-- The index set of [n0, 1, n2] is the product of the first and last coordinate ranges. -/
def idxEquivMid {n0 n2 : Nat} : (⟨3, ![n0, 1, n2]⟩ : Shape).Idx ≃ Fin n0 × Fin n2 where
  toFun i := (i 0, i 2)
  invFun p := ix3 p.1 (0 : Fin 1) p.2
  left_inv i := by
    funext a
    match a with
    | ⟨0, _⟩ => rfl
    | ⟨1, h⟩ =>
      have hlt : (i ⟨1, h⟩).val < 1 := (i ⟨1, h⟩).isLt
      exact Fin.ext (by show (0 : ℕ) = (i ⟨1, h⟩).val; omega)
    | ⟨2, _⟩ => rfl
  right_inv _ := rfl

/-- So a sum over it is the double sum over those coordinates. -/
theorem sum_idx3_mid {M : Type*} [AddCommMonoid M] {n0 n2 : Nat} (f : (⟨3, ![n0, 1, n2]⟩ : Shape).Idx → M) :
    ∑ i, f i = ∑ a : Fin n0, ∑ b : Fin n2, f (ix3 a (0 : Fin 1) b) := by
  rw [← Equiv.sum_comp (idxEquivMid (n0 := n0) (n2 := n2)).symm f, Fintype.sum_prod_type]
  rfl

end Cert.SegCE.SumMid
-- ==== Proof.KernelValue.lean ====
/-
  The kernel's result as the common function of the four arguments.

  At every grid point the body leaves, in the output block, the masked picked log-probabilities of the point's
  sixteen rows (the block function of the input blocks), and the point writes that block back as rows
  16 t .. 16 t + 15 of the [64,1,256] output array; the four points' blocks tile the array. Reading each input
  block's row as the argument's row 16 t + b, the array ends holding, at (n, 0, q), the masked picked
  log-probability of row n, phone q of the arguments. After the region the host sums the whole array from the
  zero word and negates: the sum over the rank-three index set is the double sum over rows and phones, so the
  result is the specification's `loss` of the arguments.
-/
import proofs.«411134_j20950850470178_3_alg».proof.Proof.KernelOut
import proofs.«411134_j20950850470178_3_alg».proof.Proof.KernelArr
import proofs.«411134_j20950850470178_3_alg».proof.Proof.SumMid
import proofs.«411134_j20950850470178_3_alg».proof.Proof.Spec
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

namespace Cert.SegCE.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.SegCE Cert.SegCE.KernelArr Cert.SegCE.KernelOut

variable (m : (ℓ : Loc nD τ sig) → Buf (Elt Ideal) ℓ) (ρ : Dev nD → PrngReg)

/-- The four arguments read by coordinates. -/
abbrev argX (c : Dev nD) : Fin 64 → Fin 46 → Fin 2048 → EReal := fun n cl p => m ((c : Thread nD τ).loc main_arg0) (ix3 n cl p)
abbrev argA (c : Dev nD) : Fin 64 → Fin 2048 → BitVec 32 := fun n p => m ((c : Thread nD τ).loc main_arg2) (ix2 n p)
abbrev argT (c : Dev nD) : Fin 64 → Fin 256 → BitVec 32 := fun n q => m ((c : Thread nD τ).loc main_arg1) (ix2 n q)
abbrev argM (c : Dev nD) : Fin 64 → Fin 256 → EReal :=
  fun n q => FloatOps.uitofp (F := Ideal) .f32 (m ((c : Thread nD τ).loc main_arg3) (ix2 n q))

/-- The output array: at (n, 0, q) the masked picked log-probability of row n, phone q. -/
def outArr (c : Dev nD) : Buf (Elt Ideal) ((c : Thread nD τ).loc main_v4) :=
  fun i => pick (argX m c (i 0)) (argA m c (i 0)) (argT m c (i 0) (i 2)) (i 2) * argM m c (i 0) (i 2)

/-- Every rank-three index with a unit middle axis is (b, 0, q). -/
theorem eq_mid {n0 n2 : Nat} (y : (⟨3, ![n0, 1, n2]⟩ : Shape).Idx) : y = ix3 (y 0) (0 : Fin 1) (y 2) := by
  funext a
  match a with
  | ⟨0, _⟩ => rfl
  | ⟨1, h⟩ =>
    have hlt : (y ⟨1, h⟩).val < 1 := (y ⟨1, h⟩).isLt
    exact Fin.ext (by show (y ⟨1, h⟩).val = 0; omega)
  | ⟨2, _⟩ => rfl

/-- What point `t` writes back is block `t` of the output array. -/
theorem flushed_eq (c : Dev nD) (t : Fin cfg0.N) (_ : (cfg0.win 4).flush t = true) :
    (dats m 0 c).flushed 4 t = ((cfg0.win 4).blk t).view.read (Elt Ideal) (outArr m c) := by
  have hi := (index_facts t).2.2.2.2
  show (cfg0.win 4).cut (grid0.coords t) ((dats m 0 c).after 4 t) = _
  rw [after0_4]
  unfold outsAt0
  rw [out_eq c (grid0.coords t) (ms0_0 t) (hs0_0 t) (ms0_1 t) (hs0_1 t) (ms0_2 t) (hs0_2 t) (ms0_3 t) (hs0_3 t) (ms0_4 t) (hs0_4 t)
    (xblk m c t) (ablk m c t) (tblk m c t) (mblk m c t)]
  funext y
  rw [View.read_apply]
  obtain ⟨b, q, rfl⟩ : ∃ (b : Fin 16) (q : Fin 256), y = ix3 b (0 : Fin 1) q := ⟨y 0, y 2, eq_mid y⟩
  have he : ((cfg0.win 4).blk t).view.emb (ix3 b (0 : Fin 1) q) = ix3 (row t b) (0 : Fin 1) q := by
    funext a
    apply Fin.ext
    match a with
    | ⟨0, _⟩ => show win0_4.index t 0 * 16 + 1 * b.val = 16 * t.val + b.val; rw [hi.1]; omega
    | ⟨1, _⟩ => show win0_4.index t 1 * 1 + 1 * 0 = 0; have := hi.2.1; omega
    | ⟨2, _⟩ => show win0_4.index t 2 * 256 + 1 * q.val = q.val; rw [hi.2.2]; omega
  rw [he]
  show blockVal (xblk m c t) (ablk m c t) (tblk m c t) (mblk m c t) (ix3 b (0 : Fin 1) q) = outArr m c (ix3 (row t b) (0 : Fin 1) q)
  unfold blockVal outArr
  simp only [xblk_apply, ablk_apply, tblk_apply, mblk_apply]
  rfl

/-- So the output array ends holding `outArr`: row n lies in the block of point n / 16. -/
theorem final (c : Dev nD) : (dats m 0 c).arrAt 4 cfg0.N = outArr m c :=
  (dats m 0 c).arrAt_eq_of_cover 4 (outArr m c) (flushed_eq m c) fun i => by
    have hN : cfg0.N = 4 := N_0
    have h0 : (i 0 : Nat) < 64 := (i 0).isLt
    have h1 : (i 1 : Nat) < 1 := (i 1).isLt
    have h2 : (i 2 : Nat) < 256 := (i 2).isLt
    have ht : (i 0 : Nat) / 16 < cfg0.N := by omega
    have hi := (index_facts (⟨(i 0 : Nat) / 16, ht⟩ : Fin cfg0.N)).2.2.2.2
    refine ⟨⟨(i 0 : Nat) / 16, ht⟩, flush0_4 _, ?_⟩
    show i ∈ ((View.whole main_v4).slice (win0_4.rect ⟨(i 0 : Nat) / 16, ht⟩)).set
    rw [View.set_slice_whole, Rect.mem_set_unit]
    intro a
    match a with
    | ⟨0, _⟩ =>
      show win0_4.index ⟨(i 0 : Nat) / 16, ht⟩ 0 * win0_4.size 0 ≤ (i 0 : Nat)
        ∧ (i 0 : Nat) < win0_4.index ⟨(i 0 : Nat) / 16, ht⟩ 0 * win0_4.size 0 + win0_4.xsize (grid0.coords ⟨(i 0 : Nat) / 16, ht⟩) 0
      rw [hi.1]
      show (i 0 : Nat) / 16 * 16 ≤ (i 0 : Nat) ∧ (i 0 : Nat) < (i 0 : Nat) / 16 * 16 + 16
      omega
    | ⟨1, _⟩ =>
      show win0_4.index ⟨(i 0 : Nat) / 16, ht⟩ 1 * win0_4.size 1 ≤ (i 1 : Nat)
        ∧ (i 1 : Nat) < win0_4.index ⟨(i 0 : Nat) / 16, ht⟩ 1 * win0_4.size 1 + win0_4.xsize (grid0.coords ⟨(i 0 : Nat) / 16, ht⟩) 1
      rw [hi.2.1]
      show 0 * 1 ≤ (i 1 : Nat) ∧ (i 1 : Nat) < 0 * 1 + 1
      omega
    | ⟨2, _⟩ =>
      show win0_4.index ⟨(i 0 : Nat) / 16, ht⟩ 2 * win0_4.size 2 ≤ (i 2 : Nat)
        ∧ (i 2 : Nat) < win0_4.index ⟨(i 0 : Nat) / 16, ht⟩ 2 * win0_4.size 2 + win0_4.xsize (grid0.coords ⟨(i 0 : Nat) / 16, ht⟩) 2
      rw [hi.2.2]
      show 0 * 256 ≤ (i 2 : Nat) ∧ (i 2 : Nat) < 0 * 256 + 256
      omega

/-- The host's lines after the region: the whole output array summed from the zero word, negated. With the array
    at `outArr` that is the specification's loss. -/
theorem tail_eq (c : Dev nD) (i : S_.Idx) :
    Pipeline.afterTail₀ cfgs (dats m) 0 (V0 m) [hostOps1] c main_v6 i
      = loss (argX m c) (argA m c) (argT m c) (argM m c) := by
  unfold Pipeline.afterTail₀
  show StableHlo.after hostOps1 _ (Proc.devRef .tc main_v6) i = _
  after_results
  rw [(Pipeline.withArrays_arr spec0 launch0.win.arr_inj c _ _ 4).trans (final m c)]
  show -(Ideal.hostReduceAdd reducesTo_S64x1x256_S_d0_1_2 (outArr m c) (Ideal.ofBits .f32 0x00000000#32) i) = _
  rw [Ideal.hostReduceAdd_total reducesTo_S64x1x256_S_d0_1_2 (fun b => b.elim0) (outArr m c) _ i, SumMid.sum_idx3_mid]
  rfl

/-- The run, read: the result at the loss of the arguments, the arguments unchanged. -/
theorem run : θ_run defs (onTc (τ := τ) (main (F := Ideal))) ⟨m, fun _ => 0, ρ⟩ fun r => ∀ c : Dev nD,
      r.2.mem ((c.tc : Thread nD τ).loc main_v6) = (fun _ => loss (argX m c) (argA m c) (argT m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (funext fun i => tail_eq m c i),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.SegCE.KernelValue

end
-- ==== Proof.LibAlongAxisGather.lean ====
/-
  A gather along the last axis of a rank-3 array, read at an index.

  What `take_along_axis(x, idx, axis = 2)` of an array `x : [64, 256, 46]` at an integer array `idx : [64, 256, 1]`
  lowers to: `stablehlo.gather` with the first two axes batching axes on both sides, the last operand axis collapsed
  and named by the start index map, the index vector on a fourth unit axis of the start indices, and slices of one
  element. Result element `(n, q, 0)` is the operand at `(n, q, k)` where `k` is the start index `idx[n, q, 0, 0]`
  read as a signed integer and clamped into `[0, 45]`, as the gather clamps every start index so that the slice fits.

  Per operand axis the index read is the clamped start plus the batch coordinate plus the offset coordinate: on a
  batching axis the start and the offset coordinate are zero and the batch coordinate is the result's coordinate on
  that axis; on the indexed axis the batch and offset coordinates are zero and the start is the clamped start index.
  The lemma is generic in the element type.
-/
import proofs.«411134_j20950850470178_3_alg».proof.ReferenceIdeal
import Idealize.ShloMosaic.Lib.ValueIdx

namespace Cert.AlongAxisGather

open Idealize.ShloMosaic Idealize.ShloMosaic.ValueIdx Cert.ReferenceIdeal

variable [Facts₀]

/-- Axis 0 of the operand is a batching axis. -/
theorem mem_batching0 : (0 : Fin S64x256x46.rank) ∈ gather_S64x256x46_S64x256x1x1_S64x256x1_n_2_01_01_2_3_111.operandBatchingDims :=
  List.mem_cons.mpr (Or.inl rfl)

/-- Axis 1 of the operand is a batching axis. -/
theorem mem_batching1 : (1 : Fin S64x256x46.rank) ∈ gather_S64x256x46_S64x256x1x1_S64x256x1_n_2_01_01_2_3_111.operandBatchingDims :=
  List.mem_cons.mpr (Or.inr (List.mem_cons.mpr (Or.inl rfl)))

/-- Axis 2 of the operand is the collapsed axis. -/
theorem mem_collapsed2 : (2 : Fin S64x256x46.rank) ∈ gather_S64x256x46_S64x256x1x1_S64x256x1_n_2_01_01_2_3_111.collapsedSliceDims :=
  List.mem_cons.mpr (Or.inl rfl)

/-- Axis 2 of the operand is the axis the start index names. -/
theorem mem_indexed2 : (2 : Fin S64x256x46.rank) ∈ gather_S64x256x46_S64x256x1x1_S64x256x1_n_2_01_01_2_3_111.startIndexMap :=
  List.mem_cons.mpr (Or.inl rfl)

/-- On axis 0 the index read is the result's first coordinate. -/
theorem operandIdx_val0 (idx : IVec S64x256x1x1 32) (n : Fin 64) (q : Fin 256) :
    (gather_S64x256x46_S64x256x1x1_S64x256x1_n_2_01_01_2_3_111.operandIdx (ix3 n q (0 : Fin 1)) idx 0).val = n.val := by
  have hs : gather_S64x256x46_S64x256x1x1_S64x256x1_n_2_01_01_2_3_111.start (ix3 n q (0 : Fin 1)) idx 0 = 0 :=
    GatherDims.start_batching _ _ _ _ mem_batching0
  have ho : gather_S64x256x46_S64x256x1x1_S64x256x1_n_2_01_01_2_3_111.offCoord (ix3 n q (0 : Fin 1)) 0 = 0 :=
    GatherDims.offCoord_eq_zero _ _ _ (fun h => ((GatherDims.mem_sKept _ _).mp h).2 mem_batching0)
  have hb : gather_S64x256x46_S64x256x1x1_S64x256x1_n_2_01_01_2_3_111.batchCoord (ix3 n q (0 : Fin 1)) 0 = n.val := by
    unfold GatherDims.batchCoord
    rw [dif_pos mem_batching0]
    rfl
  show gather_S64x256x46_S64x256x1x1_S64x256x1_n_2_01_01_2_3_111.start (ix3 n q (0 : Fin 1)) idx 0
      + gather_S64x256x46_S64x256x1x1_S64x256x1_n_2_01_01_2_3_111.batchCoord (ix3 n q (0 : Fin 1)) 0
      + gather_S64x256x46_S64x256x1x1_S64x256x1_n_2_01_01_2_3_111.offCoord (ix3 n q (0 : Fin 1)) 0 = n.val
  rw [hs, ho, hb, Nat.zero_add, Nat.add_zero]

/-- On axis 1 the index read is the result's second coordinate. -/
theorem operandIdx_val1 (idx : IVec S64x256x1x1 32) (n : Fin 64) (q : Fin 256) :
    (gather_S64x256x46_S64x256x1x1_S64x256x1_n_2_01_01_2_3_111.operandIdx (ix3 n q (0 : Fin 1)) idx 1).val = q.val := by
  have hs : gather_S64x256x46_S64x256x1x1_S64x256x1_n_2_01_01_2_3_111.start (ix3 n q (0 : Fin 1)) idx 1 = 0 :=
    GatherDims.start_batching _ _ _ _ mem_batching1
  have ho : gather_S64x256x46_S64x256x1x1_S64x256x1_n_2_01_01_2_3_111.offCoord (ix3 n q (0 : Fin 1)) 1 = 0 :=
    GatherDims.offCoord_eq_zero _ _ _ (fun h => ((GatherDims.mem_sKept _ _).mp h).2 mem_batching1)
  have hb : gather_S64x256x46_S64x256x1x1_S64x256x1_n_2_01_01_2_3_111.batchCoord (ix3 n q (0 : Fin 1)) 1 = q.val := by
    unfold GatherDims.batchCoord
    rw [dif_pos mem_batching1]
    rfl
  show gather_S64x256x46_S64x256x1x1_S64x256x1_n_2_01_01_2_3_111.start (ix3 n q (0 : Fin 1)) idx 1
      + gather_S64x256x46_S64x256x1x1_S64x256x1_n_2_01_01_2_3_111.batchCoord (ix3 n q (0 : Fin 1)) 1
      + gather_S64x256x46_S64x256x1x1_S64x256x1_n_2_01_01_2_3_111.offCoord (ix3 n q (0 : Fin 1)) 1 = q.val
  rw [hs, ho, hb, Nat.zero_add, Nat.add_zero]

/-- On axis 2 the index read is the start index, read signed and clamped into `[0, 45]`. -/
theorem operandIdx_val2 (idx : IVec S64x256x1x1 32) (n : Fin 64) (q : Fin 256) :
    (gather_S64x256x46_S64x256x1x1_S64x256x1_n_2_01_01_2_3_111.operandIdx (ix3 n q (0 : Fin 1)) idx 2).val
      = min (idx (ix4 n q (0 : Fin 1) (0 : Fin 1))).toInt.toNat 45 := by
  have hb : gather_S64x256x46_S64x256x1x1_S64x256x1_n_2_01_01_2_3_111.batchCoord (ix3 n q (0 : Fin 1)) 2 = 0 :=
    GatherDims.batchCoord_eq_zero _ _ _ (fun h => gather_S64x256x46_S64x256x1x1_S64x256x1_n_2_01_01_2_3_111.sim_disjoint _ mem_indexed2 h)
  have ho : gather_S64x256x46_S64x256x1x1_S64x256x1_n_2_01_01_2_3_111.offCoord (ix3 n q (0 : Fin 1)) 2 = 0 :=
    GatherDims.offCoord_eq_zero _ _ _ (fun h => ((GatherDims.mem_sKept _ _).mp h).1 mem_collapsed2)
  have hs : gather_S64x256x46_S64x256x1x1_S64x256x1_n_2_01_01_2_3_111.start (ix3 n q (0 : Fin 1)) idx 2
      = min (idx (ix4 n q (0 : Fin 1) (0 : Fin 1))).toInt.toNat 45 := by
    unfold GatherDims.start
    rw [dif_pos mem_indexed2]
    have hsi : gather_S64x256x46_S64x256x1x1_S64x256x1_n_2_01_01_2_3_111.siIdx (ix3 n q (0 : Fin 1))
        ⟨List.idxOf (2 : Fin S64x256x46.rank) gather_S64x256x46_S64x256x1x1_S64x256x1_n_2_01_01_2_3_111.startIndexMap,
          List.idxOf_lt_length_iff.2 mem_indexed2⟩ = ix4 n q (0 : Fin 1) (0 : Fin 1) := by
      funext b; refine Fin.ext ?_
      match b with
      | ⟨0, _⟩ => rfl
      | ⟨1, _⟩ => rfl
      | ⟨2, _⟩ => rfl
      | ⟨3, _⟩ => rfl
    exact congrArg (fun i => min (idx i).toInt.toNat 45) hsi
  show gather_S64x256x46_S64x256x1x1_S64x256x1_n_2_01_01_2_3_111.start (ix3 n q (0 : Fin 1)) idx 2
      + gather_S64x256x46_S64x256x1x1_S64x256x1_n_2_01_01_2_3_111.batchCoord (ix3 n q (0 : Fin 1)) 2
      + gather_S64x256x46_S64x256x1x1_S64x256x1_n_2_01_01_2_3_111.offCoord (ix3 n q (0 : Fin 1)) 2 = _
  rewrite [hs, hb, ho]
  rfl

/-- THE GATHER READ AT `(n, q, 0)`: the operand at `(n, q, k)`, `k` the start index `idx[n, q, 0, 0]` read signed and
    clamped into `[0, 45]`. -/
theorem gather_alongAxis_apply {α : Type} (x : S64x256x46.Idx → α) (idx : IVec S64x256x1x1 32) (n : Fin 64) (q : Fin 256) :
    Host.gather gather_S64x256x46_S64x256x1x1_S64x256x1_n_2_01_01_2_3_111 x idx (ix3 n q (0 : Fin 1))
      = x (ix3 n q ⟨min (idx (ix4 n q (0 : Fin 1) (0 : Fin 1))).toInt.toNat 45, by omega⟩) := by
  show x (gather_S64x256x46_S64x256x1x1_S64x256x1_n_2_01_01_2_3_111.operandIdx (ix3 n q (0 : Fin 1)) idx) = _
  refine congrArg x (funext fun a => Fin.ext ?_)
  match a with
  | ⟨0, _⟩ => exact operandIdx_val0 idx n q
  | ⟨1, _⟩ => exact operandIdx_val1 idx n q
  | ⟨2, _⟩ => exact operandIdx_val2 idx n q

end Cert.AlongAxisGather
-- ==== Proof.LibReduceLastAxis.lean ====
/-
  The host's reduce over the LAST axis, read at an index.

  A one-operand `stablehlo.reduce` with a commutative and associative body over one axis is, at a result index, the
  fold of the body from the initial value over that axis's coordinates (PureOps/Reduce.lean). Here that fold is read
  with the result index and the operand index written by their coordinates, for the two cases a row-wise softmax and
  a clamped gather along the last axis print:

  * a rank-3 array `[A, B, C]` reduced with a maximum body over its last axis from any word `w`: at `(n, q)` the fold
    of `max` from the word's value over the `C` entries `x (n, q, c)` (`hostReduce_max_last3`);
  * a rank-4 array `[A, B, C, 1]` of one-bit words reduced with an `and` body over its last axis, a unit axis, from the
    bit one: at `(n, q, r)` the one entry `x (n, q, r, 0)` (`hostReduce_andi_unit_last4`).

  The index a result index lifts to, with the reduced coordinate put back last, is `ix3 n q k` / `ix4 n q r k`.
-/
import Idealize.ShloMosaic.PureOps.Reduce
import Idealize.ShloMosaic.PureOps.Ideal.Laws
import Idealize.ShloMosaic.Lib.ValueIdx

noncomputable section

namespace Cert.ReduceLastAxis

open Idealize.ShloMosaic Idealize.ShloMosaic.ValueIdx

/-- The reduced index `(n, q)` of a rank-3 array with coordinate `k` put back on the last axis is `(n, q, k)`. -/
theorem lift_last3 {A B C : Nat} (h : (⟨3, ![A, B, C]⟩ : Shape).Reduces [2] (⟨2, ![A, B]⟩ : Shape)) (n : Fin A) (q : Fin B)
    (k : Fin ((⟨3, ![A, B, C]⟩ : Shape).size 2)) : h.lift (ix2 n q) k = ix3 n q (⟨k.val, k.isLt⟩ : Fin C) := by
  funext c; apply Fin.ext
  match c with
  | ⟨0, _⟩ => rfl
  | ⟨1, _⟩ => rfl
  | ⟨2, _⟩ => rfl

/-- The reduced index `(n, q, r)` of a rank-4 array with coordinate `k` put back on the last axis is `(n, q, r, k)`. -/
theorem lift_last4 {A B C D : Nat} (h : (⟨4, ![A, B, C, D]⟩ : Shape).Reduces [3] (⟨3, ![A, B, C]⟩ : Shape)) (n : Fin A)
    (q : Fin B) (r : Fin C) (k : Fin ((⟨4, ![A, B, C, D]⟩ : Shape).size 3)) :
    h.lift (ix3 n q r) k = ix4 n q r (⟨k.val, k.isLt⟩ : Fin D) := by
  funext c; apply Fin.ext
  match c with
  | ⟨0, _⟩ => rfl
  | ⟨1, _⟩ => rfl
  | ⟨2, _⟩ => rfl
  | ⟨3, _⟩ => rfl

/-- From the word `w` the host's reduce with a maximum body over the last axis of `[A, B, C]`, at `(n, q)`, is the fold of
    `max` from the word's value over the `C` entries of row `(n, q)`. -/
theorem hostReduce_max_last3 {A B C : Nat} (x : FVec Ideal ⟨3, ![A, B, C]⟩ .f32)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (w : BitVec 32) (n : Fin A) (q : Fin B) :
    Host.reduce FloatOps.maximumf x (constant (F := Ideal) (⟨0, ![]⟩ : Shape) .f32 w) h' hu (ix2 n q)
      = (Finset.univ : Finset (Fin C)).fold max (Ideal.ofBits .f32 w) (fun c => x (ix3 n q c)) := by
  rw [Host.reduce_eq_fold_single FloatOps.maximumf x _ h' h hu]
  have hf : (x ∘ h.lift (ix2 n q)) = fun k : Fin C => x (ix3 n q k) :=
    funext fun k => congrArg x (lift_last3 h n q k)
  exact congrArg (fun f => Finset.fold max (Ideal.ofBits .f32 w) f (Finset.univ : Finset (Fin C))) hf

/-- The `and` of a one-bit word with the bit one is the word. -/
theorem andi_one (b : BitVec 1) : IntOp.andi b 1#1 = b := by
  rcases BitVec.eq_zero_or_eq_one b with h | h <;> subst h <;> decide

/-- From the bit one the host's reduce with an `and` body over the last, unit axis of `[A, B, C, 1]`, at `(n, q, r)`, is
    the one entry there. -/
theorem hostReduce_andi_unit_last4 {A B C : Nat} (x : IVec ⟨4, ![A, B, C, 1]⟩ 1)
    (h' : (⟨4, ![A, B, C, 1]⟩ : Shape).ReducesTo [3] (⟨3, ![A, B, C]⟩ : Shape))
    (h : (⟨4, ![A, B, C, 1]⟩ : Shape).Reduces [3] (⟨3, ![A, B, C]⟩ : Shape)) (hu : 0 < (⟨0, ![]⟩ : Shape).numel)
    (n : Fin A) (q : Fin B) (r : Fin C) :
    Host.reduce IntOp.andi x (constantI (⟨0, ![]⟩ : Shape) 1 1#1) h' hu (ix3 n q r) = x (ix4 n q r (0 : Fin 1)) := by
  rw [Host.reduce_eq_fold_single IntOp.andi x _ h' h hu]
  have hf : (x ∘ h.lift (ix3 n q r)) = fun k : Fin 1 => x (ix4 n q r k) :=
    funext fun k => congrArg x (lift_last4 h n q r k)
  refine (congrArg (fun f => Finset.fold IntOp.andi (1#1 : BitVec 1) f (Finset.univ : Finset (Fin 1))) hf).trans ?_
  rw [Finset.univ_unique, Finset.fold_singleton]
  have hd : (default : Fin 1) = 0 := Subsingleton.elim _ _
  rw [hd]
  exact andi_one _

end Cert.ReduceLastAxis

end
-- ==== Proof.RefRow.lean ====
/-
  The reference's stages, read at an index, are the specification's.

  Per batch row `n`, phone `q`, frame `p` and class `c`: the one-hot array is `hot`; the contraction with the logits is
  `segSum` and the row sum of the one-hot array is the zero word plus `segCnt`, so the quotient by the count raised to
  one is `mean`; the maximum over the classes, folded from the word for minus infinity and once more compared with that
  word, is `rowMax`; subtracting it gives `shifted`, the logarithm of the sum of the exponentials `lse`, and their
  difference `logp`. The index chain of the gather along the class axis: a target word whose natural value is below 46
  is not negative as a signed word, so the wrap-around select keeps it, both range tests hold, the reduced bit is one
  and the outer select takes the gathered element, which is `logp` at the class the target names (read signed it is
  its natural value, and clamping into `[0, 45]` does not move it). With the mask this is the specification's
  contribution `pick … * mask`.
-/
import proofs.«411134_j20950850470178_3_alg».proof.Proof.RefRead
import proofs.«411134_j20950850470178_3_alg».proof.Proof.Spec
import proofs.«411134_j20950850470178_3_alg».proof.Proof.LibAlongAxisGather
import proofs.«411134_j20950850470178_3_alg».proof.Proof.LibReduceLastAxis

noncomputable section

namespace Cert.SegCE.RefRow

open Idealize.ShloMosaic Idealize.ShloMosaic.ValueIdx Cert.ReferenceIdeal Cert.ReferenceIdeal.Gen Cert.ReferenceIdeal.ReadP Cert.SegCE

variable (x0 : (⟨S64x46x2048, .f32⟩ : BufTy).Contents (Elt Ideal)) (x1 : (⟨S64x256, .i32⟩ : BufTy).Contents (Elt Ideal))
  (x2 : (⟨S64x2048, .i32⟩ : BufTy).Contents (Elt Ideal)) (x3 : (⟨S64x256, .i1⟩ : BufTy).Contents (Elt Ideal))

/-! ## Words -/

/-- An equality test of two words, read as a real, is one where they are equal and zero elsewhere. -/
theorem uitofp_cmpi_eq (a b : BitVec 32) :
    FloatOps.uitofp (F := Ideal) .f32 (IntOp.cmpi .eq a b) = if a = b then (1 : EReal) else 0 := by
  by_cases h : a = b
  · have hb : (a == b) = true := beq_iff_eq.mpr h
    rewrite [if_pos h]
    show (((BitVec.ofBool (a == b)).toNat : ℝ) : EReal) = 1
    rewrite [hb]
    show (((1 : Nat) : ℝ) : EReal) = 1
    rewrite [Nat.cast_one, EReal.coe_one]
    rfl
  · have hb : (a == b) = false := beq_eq_false_iff_ne.mpr h
    rewrite [if_neg h]
    show (((BitVec.ofBool (a == b)).toNat : ℝ) : EReal) = 0
    rewrite [hb]
    show (((0 : Nat) : ℝ) : EReal) = 0
    rewrite [Nat.cast_zero, EReal.coe_zero]
    rfl

/-- A word whose natural value is below 46 reads signed as that value. -/
theorem toInt_of_lt (t : BitVec 32) (h : t.toNat < 46) : t.toInt = (t.toNat : Int) :=
  BitVec.toInt_eq_toNat_of_lt (by
    have h32 : (2 : Nat) ^ 32 = 4294967296 := by decide
    omega)

/-- Such a word is not negative … -/
theorem slt_zero (t : BitVec 32) (h : t.toNat < 46) : IntOp.cmpi .slt t 0#32 = 0#1 := by
  have e := toInt_of_lt t h
  have h0 : (0#32 : BitVec 32).toInt = 0 := by decide
  have hs : t.slt 0#32 = false := by
    rewrite [Bool.eq_false_iff]
    intro hs
    rewrite [BitVec.slt_iff_toInt_lt, h0] at hs
    omega
  show BitVec.ofBool (t.slt 0#32) = 0#1
  rewrite [hs]
  rfl

/-- … is at least zero … -/
theorem sge_zero (t : BitVec 32) (h : t.toNat < 46) : IntOp.cmpi .sge t 0#32 = 1#1 := by
  have e := toInt_of_lt t h
  have h0 : (0#32 : BitVec 32).toInt = 0 := by decide
  have hs : BitVec.sle 0#32 t = true := by
    rewrite [BitVec.sle_eq_decide, decide_eq_true_eq, h0]
    omega
  show BitVec.ofBool (BitVec.sle 0#32 t) = 1#1
  rewrite [hs]
  rfl

/-- … and at most 45. -/
theorem sle_45 (t : BitVec 32) (h : t.toNat < 46) : IntOp.cmpi .sle t 45#32 = 1#1 := by
  have e := toInt_of_lt t h
  have h45 : (45#32 : BitVec 32).toInt = 45 := by decide
  have hs : BitVec.sle t 45#32 = true := by
    rewrite [BitVec.sle_eq_decide, decide_eq_true_eq, h45]
    omega
  show BitVec.ofBool (BitVec.sle t 45#32) = 1#1
  rewrite [hs]
  rfl

/-- Read signed and clamped into `[0, 45]` it is its natural value. -/
theorem clamp_of_lt (t : BitVec 32) (h : t.toNat < 46) : min t.toInt.toNat 45 = t.toNat := by
  rewrite [toInt_of_lt t h, Int.toNat_natCast]
  omega

/-! ## The stages -/

/-- The one-hot array at `(n, q, p)`: frame `p` of row `n` belongs to phone `q`. -/
theorem onehot_apply (n : Fin 64) (q : Fin 256) (p : Fin 2048) :
    val_main_v8 (F := Ideal) x2 (ix3 n q p) = hot (x2 (ix2 n p)) q := by
  rewrite [val_main_v8_apply, val_main_v7_apply, val_main_v5_apply, val_main_v3_apply, val_main_v6_apply,
    val_main_v4_apply, val_main_v2_apply, val_main_v1_apply, val_main_c_apply, val_main_v0_apply]
  have e1 : idx_main_v3 (idx_main_v5 (ix3 n q p)) = ix2 n p :=
    funext fun a => Fin.ext (by match a with | ⟨0, _⟩ => rfl | ⟨1, _⟩ => rfl)
  rewrite [e1]
  show FloatOps.uitofp (F := Ideal) .f32 (IntOp.cmpi .eq (x2 (ix2 n p)) (1#32 + BitVec.ofNat 32 q.val))
    = hot (x2 (ix2 n p)) q
  rewrite [uitofp_cmpi_eq, BitVec.add_comm (1#32) (BitVec.ofNat 32 q.val)]
  rfl

/-- The contraction at `(n, q, c)`: the sum of class `c`'s logits over the phone's frames. -/
theorem segSum_apply (n : Fin 64) (q : Fin 256) (c : Fin 46) :
    val_main_v9 (F := Ideal) x0 x2 (ix3 n q c) = segSum (fun c p => x0 (ix3 n c p)) (fun p => x2 (ix2 n p)) q c := by
  rewrite [val_main_v9_apply]
  unfold segSum
  refine Finset.sum_congr rfl fun p _ => ?_
  have el : lidx_main_v9 (ix3 n q c) p = ix3 n q p :=
    funext fun a => Fin.ext (by match a with | ⟨0, _⟩ => rfl | ⟨1, _⟩ => rfl | ⟨2, _⟩ => rfl)
  have er : ridx_main_v9 (ix3 n q c) p = ix3 n c p :=
    funext fun a => Fin.ext (by match a with | ⟨0, _⟩ => rfl | ⟨1, _⟩ => rfl | ⟨2, _⟩ => rfl)
  rewrite [el, er, onehot_apply]
  rfl

/-- The row sum of the one-hot array at `(n, q)`: the number of the phone's frames. -/
theorem segCnt_apply (n : Fin 64) (q : Fin 256) :
    val_main_v10 (F := Ideal) x2 (ix2 n q) = segCnt (fun p => x2 (ix2 n p)) q := by
  rewrite [val_main_v10_apply, val_main_cst_apply]
  show Ideal.ofBits .f32 0x00000000#32 + _ = _
  rewrite [Ideal.ofBits_zero_f32, zero_add]
  unfold segCnt
  refine Finset.sum_congr rfl fun p _ => ?_
  have e : idx_main_v10 (ix2 n q) p = ix3 n q p :=
    funext fun a => Fin.ext (by match a with | ⟨0, _⟩ => rfl | ⟨1, _⟩ => rfl | ⟨2, _⟩ => rfl)
  rewrite [e, onehot_apply]
  rfl

/-- The quotient at `(n, q, c)`: the mean logit. -/
theorem mean_apply (n : Fin 64) (q : Fin 256) (c : Fin 46) :
    val_main_v15 (F := Ideal) x0 x2 (ix3 n q c) = mean (fun c p => x0 (ix3 n c p)) (fun p => x2 (ix2 n p)) q c := by
  rewrite [val_main_v15_apply, val_main_v14_apply, val_main_v13_apply, val_main_v12_apply, val_main_v11_apply,
    val_main_cst_0_apply]
  have e : idx_main_v13 (idx_main_v14 (ix3 n q c)) = ix2 n q :=
    funext fun a => Fin.ext (by match a with | ⟨0, _⟩ => rfl | ⟨1, _⟩ => rfl)
  rewrite [e, segSum_apply, segCnt_apply]
  rfl

/-- The maximum over the classes at `(n, q)`. -/
theorem rowMax_apply (n : Fin 64) (q : Fin 256) :
    val_main_call0_v2 (F := Ideal) x0 x2 (ix2 n q) = rowMax (fun c p => x0 (ix3 n c p)) (fun p => x2 (ix2 n p)) q := by
  have hv0 : val_main_call0_v0 (F := Ideal) x0 x2 (ix2 n q)
      = (Finset.univ : Finset (Fin 46)).fold max (Ideal.ofBits .f32 0xFF800000#32)
          (fun c => mean (fun c p => x0 (ix3 n c p)) (fun p => x2 (ix2 n p)) q c) := by
    have h1 := Cert.ReduceLastAxis.hostReduce_max_last3 (val_main_v15 (F := Ideal) x0 x2)
      reducesTo_S64x256x46_S64x256_d2
      ⟨reducesTo_S64x256x46_S64x256_d2.1, Nat.zero_lt_succ _, reducesTo_S64x256x46_S64x256_d2.2⟩ h_S_ 0xFF800000#32 n q
    unfold val_main_call0_v0
    refine Eq.trans h1 ?_
    exact congrArg (fun f => Finset.fold max (Ideal.ofBits .f32 0xFF800000#32) f (Finset.univ : Finset (Fin 46)))
      (funext fun c => mean_apply x0 x2 n q c)
  rewrite [val_main_call0_v2_apply, val_main_call0_v1_apply, val_main_call0_cst_0_apply, hv0]
  unfold rowMax
  show max (Ideal.ofBits .f32 0xFF800000#32) _ = _
  exact max_eq_right ((Finset.le_fold_max _).2 (Or.inl le_rfl))

/-- The mean less the maximum at `(n, q, c)`. -/
theorem shifted_apply (n : Fin 64) (q : Fin 256) (c : Fin 46) :
    val_main_call0_v5 (F := Ideal) x0 x2 (ix3 n q c)
      = shifted (fun c p => x0 (ix3 n c p)) (fun p => x2 (ix2 n p)) q c := by
  rewrite [val_main_call0_v5_apply, val_main_call0_v4_apply, val_main_call0_v3_apply]
  have e : idx_main_call0_v3 (idx_main_call0_v4 (ix3 n q c)) = ix2 n q :=
    funext fun a => Fin.ext (by match a with | ⟨0, _⟩ => rfl | ⟨1, _⟩ => rfl)
  rewrite [e, mean_apply, rowMax_apply]
  rfl

/-- The logarithm of the sum of the exponentials at `(n, q, 0)`. -/
theorem lse_apply (n : Fin 64) (q : Fin 256) :
    val_main_call0_v9 (F := Ideal) x0 x2 (ix3 n q (0 : Fin 1))
      = lse (fun c p => x0 (ix3 n c p)) (fun p => x2 (ix2 n p)) q := by
  rewrite [val_main_call0_v9_apply, val_main_call0_v8_apply]
  have e : idx_main_call0_v8 (ix3 n q (0 : Fin 1)) = ix2 n q :=
    funext fun a => Fin.ext (by match a with | ⟨0, _⟩ => rfl | ⟨1, _⟩ => rfl)
  rewrite [e, val_main_call0_v7_apply, val_main_call0_cst_1_apply]
  show Ideal.log (Ideal.ofBits .f32 0x00000000#32 + _) = _
  rewrite [Ideal.ofBits_zero_f32, zero_add]
  unfold lse
  refine congrArg Ideal.log (Finset.sum_congr rfl fun k _ => ?_)
  have ek : idx_main_call0_v7 (ix2 n q) k = ix3 n q k :=
    funext fun a => Fin.ext (by match a with | ⟨0, _⟩ => rfl | ⟨1, _⟩ => rfl | ⟨2, _⟩ => rfl)
  rewrite [ek, val_main_call0_v6_apply]
  exact congrArg Ideal.exp (shifted_apply x0 x2 n q k)

/-- The log-probability at `(n, q, c)`. -/
theorem logp_apply (n : Fin 64) (q : Fin 256) (c : Fin 46) :
    val_main_v16 (F := Ideal) x0 x2 (ix3 n q c) = logp (fun c p => x0 (ix3 n c p)) (fun p => x2 (ix2 n p)) q c := by
  rewrite [val_main_v16_apply, val_main_call0_v10_apply]
  have e : idx_main_call0_v10 (ix3 n q c) = ix3 n q (0 : Fin 1) :=
    funext fun a => Fin.ext (by match a with | ⟨0, _⟩ => rfl | ⟨1, _⟩ => rfl | ⟨2, _⟩ => rfl)
  rewrite [e, shifted_apply, lse_apply]
  rfl

/-! ## The gather along the class axis -/

/-- The wrap-around select at `(n, q, 0)` keeps a target word that is not negative. -/
theorem wrapped_apply (n : Fin 64) (q : Fin 256) (h : (x1 (ix2 n q)).toNat < 46) :
    val_main_call1_v4 (F := Ideal) x1 (ix3 n q (0 : Fin 1)) = x1 (ix2 n q) := by
  rewrite [val_main_call1_v4_apply, val_main_call1_v1_apply, val_main_v17_apply, val_main_call1_v0_apply,
    val_main_call1_c_apply]
  have e : idx_main_v17 (ix3 n q (0 : Fin 1)) = ix2 n q :=
    funext fun a => Fin.ext (by match a with | ⟨0, _⟩ => rfl | ⟨1, _⟩ => rfl)
  rewrite [e, slt_zero _ h]
  exact select_zero _ _

/-- The start index at `(n, q, 0, 0)` is the target word. -/
theorem startIdx_apply (n : Fin 64) (q : Fin 256) (h : (x1 (ix2 n q)).toNat < 46) :
    val_main_call1_v5 (F := Ideal) x1 (ix4 n q (0 : Fin 1) (0 : Fin 1)) = x1 (ix2 n q) := by
  rewrite [val_main_call1_v5_apply]
  have e5 : idx_main_call1_v5 (ix4 n q (0 : Fin 1) (0 : Fin 1)) = ix3 n q (0 : Fin 1) := by
    have hn := n.isLt
    have hq := q.isLt
    funext a; refine Fin.ext ?_
    match a with
    | ⟨0, _⟩ => show (((n.val * 256 + q.val) * 1 + 0) * 1 + 0) / 256 = n.val; omega
    | ⟨1, _⟩ => show (((n.val * 256 + q.val) * 1 + 0) * 1 + 0) / 1 % 256 = q.val; omega
    | ⟨2, _⟩ => rfl
  rewrite [e5]
  exact wrapped_apply x1 n q h

/-- Both range tests hold, so the bit reduced over the unit axis at `(n, q, 0)` is one. -/
theorem inRange_apply (n : Fin 64) (q : Fin 256) (h : (x1 (ix2 n q)).toNat < 46) :
    val_main_call1_v12 (F := Ideal) x1 (ix3 n q (0 : Fin 1)) = 1#1 := by
  unfold val_main_call1_v12
  refine (Cert.ReduceLastAxis.hostReduce_andi_unit_last4 (val_main_call1_v11 (F := Ideal) x1)
    reducesTo_S64x256x1x1_S64x256x1_d3
    ⟨reducesTo_S64x256x1x1_S64x256x1_d3.1, Nat.zero_lt_succ _, reducesTo_S64x256x1x1_S64x256x1_d3.2⟩ h_S_ n q
    (0 : Fin 1)).trans ?_
  rewrite [val_main_call1_v11_apply, val_main_call1_v7_apply, val_main_call1_v10_apply, startIdx_apply x1 n q h,
    val_main_call1_v6_apply, val_main_call1_c_2_apply, val_main_call1_v9_apply, val_main_call1_v8_apply,
    val_main_call1_c_1_apply, sge_zero _ h, sle_45 _ h]
  decide

/-- The gathered element at `(n, q, 0)` is the log-probability at the class the target names. -/
theorem gathered_apply (n : Fin 64) (q : Fin 256) (h : (x1 (ix2 n q)).toNat < 46) :
    val_main_call1_v13 (F := Ideal) x0 x1 x2 (ix3 n q (0 : Fin 1))
      = logp (fun c p => x0 (ix3 n c p)) (fun p => x2 (ix2 n p)) q ⟨(x1 (ix2 n q)).toNat, h⟩ := by
  unfold val_main_call1_v13
  refine (Cert.AlongAxisGather.gather_alongAxis_apply (val_main_v16 (F := Ideal) x0 x2)
    (val_main_call1_v5 (F := Ideal) x1) n q).trans ?_
  refine (congrArg (val_main_v16 (F := Ideal) x0 x2) ?_).trans
    (logp_apply x0 x2 n q ⟨(x1 (ix2 n q)).toNat, h⟩)
  refine congrArg (ix3 n q) (Fin.ext ?_)
  show min (val_main_call1_v5 (F := Ideal) x1 (ix4 n q (0 : Fin 1) (0 : Fin 1))).toInt.toNat 45
    = (x1 (ix2 n q)).toNat
  rewrite [startIdx_apply x1 n q h]
  exact clamp_of_lt _ h

/-! ## A phone's contribution -/

/-- The masked product at `(n, q)` is the specification's contribution of phone `q` of row `n`, for a target word that
    is a class number. -/
theorem contrib_apply (n : Fin 64) (q : Fin 256) (h : (x1 (ix2 n q)).toNat < 46) :
    val_main_v21 (F := Ideal) x0 x1 x2 x3 (ix2 n q)
      = pick (fun c p => x0 (ix3 n c p)) (fun p => x2 (ix2 n p)) (x1 (ix2 n q)) q
          * FloatOps.uitofp (F := Ideal) .f32 (x3 (ix2 n q)) := by
  rewrite [val_main_v21_apply, val_main_v20_apply, val_main_v19_apply]
  have e19 : idx_main_v19 (ix2 n q) = ix3 n q (0 : Fin 1) := by
    have hn := n.isLt
    have hq := q.isLt
    funext a; refine Fin.ext ?_
    match a with
    | ⟨0, _⟩ => show (n.val * 256 + q.val) / 256 = n.val; omega
    | ⟨1, _⟩ => show (n.val * 256 + q.val) / 1 % 256 = q.val; omega
    | ⟨2, _⟩ => rfl
  rewrite [e19, val_main_v18_apply, inRange_apply x1 n q h, select_one, gathered_apply x0 x1 x2 n q h,
    pick_eq _ _ _ _ h]
  rfl

end Cert.SegCE.RefRow

end
-- ==== Proof.RefValue.lean ====
/-
  The reference's result as the common function of the four arguments.

  The reference ends by summing, over all 64 x 256 (row, phone) pairs, the product of the gathered log-probability
  and the mask value, from the zero word, and negating. Where every target label is a class number (below 46) each
  product is the masked picked log-probability of the specification; the sum over the rank-two index set is the
  double sum over rows and phones; so the result is the specification's `loss` of the arguments.
-/
import proofs.«411134_j20950850470178_3_alg».proof.Proof.RefRow
import proofs.«411134_j20950850470178_3_alg».proof.Proof.Spec
import Idealize.ShloMosaic.Lib.ValueIdx

noncomputable section

namespace Cert.SegCE.RefValue

open Idealize.ShloMosaic Idealize.ShloMosaic.ValueIdx
open Cert.ReferenceIdeal Cert.ReferenceIdeal.ReadP Cert.SegCE

/-- The reference's last stage, where the labels are class numbers, is the specification's loss of the arguments
    read by coordinates. -/
theorem result_eq (x0 : (⟨S64x46x2048, .f32⟩ : BufTy).Contents (Elt Ideal)) (x1 : (⟨S64x256, .i32⟩ : BufTy).Contents (Elt Ideal))
    (x2 : (⟨S64x2048, .i32⟩ : BufTy).Contents (Elt Ideal)) (x3 : (⟨S64x256, .i1⟩ : BufTy).Contents (Elt Ideal))
    (h : ∀ (n : Fin 64) (q : Fin 256), (x1 (ix2 n q)).toNat < 46) (i : S_.Idx) :
    val_main_v23 (F := Ideal) x0 x1 x2 x3 i
      = loss (fun n cl p => x0 (ix3 n cl p)) (fun n p => x2 (ix2 n p)) (fun n q => x1 (ix2 n q))
          (fun n q => FloatOps.uitofp (F := Ideal) .f32 (x3 (ix2 n q))) := by
  rw [val_main_v23_apply, val_main_v22_apply, sum_idx2]
  have e : ∀ (n : Fin 64) (q : Fin 256), val_main_v21 (F := Ideal) x0 x1 x2 x3 (ix2 n q)
      = pick (fun cl p => x0 (ix3 n cl p)) (fun p => x2 (ix2 n p)) (x1 (ix2 n q)) q
          * FloatOps.uitofp (F := Ideal) .f32 (x3 (ix2 n q)) :=
    fun n q => Cert.SegCE.RefRow.contrib_apply x0 x1 x2 x3 n q (h n q)
  simp only [e]
  rfl

end Cert.SegCE.RefValue

end
-- ==== Proof.lean ====
/-
  The proof of `Cert.Claim`: a Pallas kernel for a masked segment cross-entropy against its jnp reference,
  equal over the extended reals where every target label is a class number.

  Per batch row and phone both programs average the 46 class logits over the phone's frames (a one-hot matrix
  product; the kernel gets the frame count from the same product by an appended row of ones, the reference by a
  separate sum), turn the 46 means into log-probabilities (largest mean subtracted, then the logarithm of the sum of
  the exponentials), take the log-probability at the phone's target class, multiply by the phone's mask value, and
  return minus the sum over all rows and phones. The kernel takes the target class by comparing the class numbers
  with the label and summing, which gives zero for a label that is no class number; the reference indexes by the
  label (wrapping a negative one and marking an out-of-range one not-a-number). The two agree exactly where the
  label is a class number, 0 to 45, which is the precondition's second and third conjuncts (Proof/PreRange.lean).

  Proof/Spec.lean states the common function `loss`; Proof/KernelRow.lean, KernelOut.lean, KernelArr.lean and
  KernelValue.lean read the kernel's run as `loss` of the arguments (the row payload at an index; the sixteen row
  stores of the body's loop as one block function; the blocks' rows as the arguments' rows; the output array and
  the host's final sum); Proof/RefRow.lean and RefValue.lean read the reference's stages as the same `loss`.
  No law of the extended reals beyond commutativity of a finite sum's index set is used, so finiteness of the
  logits is never opened. The idealization rewrote nothing, so `preserves` is trivial; the three frames are the
  generated frame runs.
-/
import proofs.«411134_j20950850470178_3_alg».proof.Defs
import proofs.«411134_j20950850470178_3_alg».proof.Proof.Gen.Kernel
import proofs.«411134_j20950850470178_3_alg».proof.Proof.Gen.Kernel.Frame
import proofs.«411134_j20950850470178_3_alg».proof.Proof.Gen.KernelIdeal
import proofs.«411134_j20950850470178_3_alg».proof.Proof.Gen.KernelIdeal.Frame
import proofs.«411134_j20950850470178_3_alg».proof.Proof.Gen.ReferenceIdeal
import proofs.«411134_j20950850470178_3_alg».proof.Proof.Gen.Pre_finite_inputs
import proofs.«411134_j20950850470178_3_alg».proof.Proof.RefRun
import proofs.«411134_j20950850470178_3_alg».proof.Proof.RefRead
import proofs.«411134_j20950850470178_3_alg».proof.Proof.PreRange
import proofs.«411134_j20950850470178_3_alg».proof.Proof.KernelValue
import proofs.«411134_j20950850470178_3_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the loss of the (agreeing) arguments: the kernel's by its run read as a value,
    the reference's by its stages, the labels being class numbers under the precondition. -/
theorem algebraic : Cert.algebraic_KernelIdeal_ReferenceIdeal := by
  intro m ρ m' ρ' hpre hagree
  refine ⟨fun c _ => Cert.SegCE.loss (Cert.SegCE.KernelValue.argX m c) (Cert.SegCE.KernelValue.argA m c)
      (Cert.SegCE.KernelValue.argT m c) (Cert.SegCE.KernelValue.argM m c), Cert.SegCE.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v23_eq]
  funext i
  rw [(hagree c).1, (hagree c).2.1, (hagree c).2.2.1, (hagree c).2.2.2]
  exact Cert.SegCE.RefValue.result_eq _ _ _ _
    (fun n q => Cert.SegCE.PreRange.target_lt _ _ _ _ (hpre c) (ix2 n q)) i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
